-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x400000 : Shape := ⟨2, ![2, 400000]⟩
abbrev S100x128 : Shape := ⟨2, ![100, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100x128 : S_.BroadcastsInDim S100x128 (![] : Fin 0 → Fin S100x128.rank)
  reducesTo_S100x128_S_d0_1 : S100x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg0 main_v34
  let main_c_13 : IVec S_ 32 := constantI S_ 32 100#32
  let main_v36 : IVec S100000 32 := broadcastInDim S100000 ![] bcast_S_S100000 main_c_13
  let main_v37 : IVec S100000 1 := cmpi .slt main_arg0 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg0 : IVec S100000 32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S100000 32) (main_arg1 : IVec S2x400000 32) (main_arg2 : IVec S100000 32) (main_arg3 : FVec F S100x128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S100x128 .f32 := Host.absf main_arg3
  let main_cst : FVec F S_ .f32 := constant S_ .f32 0x7F800000#32
  let main_v1 : FVec F S100x128 .f32 := broadcastInDim S100x128 ![] bcast_S_S100x128 main_cst
  let main_v2 : IVec S100x128 1 := cmpf .olt main_v0 main_v1
  let main_c : IVec S_ 1 := constantI S_ 1 1#1
  let main_v3 : IVec S_ 1 := (fun x v => Host.reduce IntOp.andi x v reducesTo_S100x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg7 main_arg8 main_arg9 main_v13 main_v16
-- ==== Kernel.lean ====
abbrev S100000 : Shape := ⟨1, ![100000]⟩
abbrev S2x400000 : Shape := ⟨2, ![2, 400000]⟩
abbrev S100x128 : Shape := ⟨2, ![100, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S102400 : Shape := ⟨1, ![102400]⟩
abbrev S102400x128 : Shape := ⟨2, ![102400, 128]⟩
abbrev S4096 : Shape := ⟨1, ![4096]⟩
abbrev S4096x128 : Shape := ⟨2, ![4096, 128]⟩
abbrev S4096x100 : Shape := ⟨2, ![4096, 100]⟩
abbrev S4096x1 : Shape := ⟨2, ![4096, 1]⟩
abbrev S100000x128 : Shape := ⟨2, ![100000, 128]⟩
abbrev S5000x128 : Shape := ⟨2, ![5000, 128]⟩
abbrev S500000x128 : Shape := ⟨2, ![500000, 128]⟩
abbrev S1x128 : Shape := ⟨2, ![1, 128]⟩
abbrev S2048x128 : Shape := ⟨2, ![2048, 128]⟩
abbrev S100000x1 : Shape := ⟨2, ![100000, 1]⟩
abbrev S2048x1 : Shape := ⟨2, ![2048, 1]⟩
abbrev S1x1 : Shape := ⟨2, ![1, 1]⟩
abbrev S2048 : Shape := ⟨1, ![2048]⟩

abbrev nBuf : Space → Nat
  | .hbm => 100
  | .vmem => 25
  | .smem => 0
  | _ => 0

abbrev bufTy : (tb : Table) → Fin (tcTables nBuf tb) → BufTy
  | .hbm, ⟨0, _⟩ => ⟨S100000, .i32⟩
  | .hbm, ⟨1, _⟩ => ⟨S2x400000, .i32⟩
  | .hbm, ⟨2, _⟩ => ⟨S100000, .i32⟩
  | .hbm, ⟨3, _⟩ => ⟨S100x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x400000, .i32⟩
  | .hbm, ⟨12, _⟩ => ⟨S400000, .i32⟩
  | .hbm, ⟨13, _⟩ => ⟨S500000, .i32⟩
  | .hbm, ⟨14, _⟩ => ⟨S1x400000, .i32⟩
  | .hbm, ⟨15, _⟩ => ⟨S400000, .i32⟩
  | .hbm, ⟨16, _⟩ => ⟨S500000, .i32⟩
  | .hbm, ⟨17, _⟩ => ⟨S_, .f32⟩
  | .hbm, ⟨18, _⟩ => ⟨S500000, .f32⟩
  | .hbm, ⟨19, _⟩ => ⟨S_, .f32⟩
  | .hbm, ⟨20, _⟩ => ⟨S100000, .f32⟩
  | .hbm, ⟨21, _⟩ => ⟨S500000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000, .f32⟩
  | .hbm, ⟨42, _⟩ => ⟨S500000, .f32⟩
  | .hbm, ⟨43, _⟩ => ⟨S_, .i32⟩
  | .hbm, ⟨44, _⟩ => ⟨S_, .i32⟩
  | .hbm, ⟨45, _⟩ => ⟨S102400, .i32⟩
  | .hbm, ⟨46, _⟩ => ⟨S102400x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x128, .f32⟩
  | .hbm, ⟨58, _⟩ => ⟨S500000x1, .f32⟩
  | .hbm, ⟨59, _⟩ => ⟨S500000x128, .f32⟩
  | .hbm, ⟨60, _⟩ => ⟨S500000x128, .f32⟩
  | .hbm, ⟨61, _⟩ => ⟨S_, .f32⟩
  | .hbm, ⟨62, _⟩ => ⟨S100000x128, .f32⟩
  | .hbm, ⟨63, _⟩ => ⟨S500000x1, .i32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .f32⟩
  | .hbm, ⟨75, _⟩ => ⟨S500000x1, .f32⟩
  | .hbm, ⟨76, _⟩ => ⟨S500000x128, .f32⟩
  | .hbm, ⟨77, _⟩ => ⟨S500000x128, .f32⟩
  | .hbm, ⟨78, _⟩ => ⟨S_, .f32⟩
  | .hbm, ⟨79, _⟩ => ⟨S100000x128, .f32⟩
  | .hbm, ⟨80, _⟩ => ⟨S500000x1, .i32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S2048x128, .f32⟩
  | .hbm, ⟨85, _⟩ => ⟨S100000x1, .i32⟩
  | .hbm, ⟨86, _⟩ => ⟨S2048x128, .f32⟩
  | .hbm, ⟨87, _⟩ => ⟨S_, .f32⟩
  | .hbm, ⟨88, _⟩ => ⟨S100000x1, .f32⟩
  | .hbm, ⟨89, _⟩ => ⟨S_, .f32⟩
  | .hbm, ⟨90, _⟩ => ⟨S2048x1, .f32⟩
  | .hbm, ⟨91, _⟩ => ⟨S100000x1, .i32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S2048x128, .f32⟩
  | .hbm, ⟨97, _⟩ => ⟨S2048x128, .f32⟩
  | .hbm, ⟨98, _⟩ => ⟨S2048x1, .f32⟩
  | .hbm, ⟨99, _⟩ => ⟨S2048, .f32⟩
  | .local _ .vmem, ⟨0, _⟩ => ⟨S4096, .i32⟩
  | .local _ .vmem, ⟨1, _⟩ => ⟨S4096, .i32⟩
  | .local _ .vmem, ⟨2, _⟩ => ⟨S100x128, .f32⟩
  | .local _ .vmem, ⟨3, _⟩ => ⟨S4096x128, .f32⟩
  | .local _ .vmem, ⟨4, _⟩ => ⟨S4096x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S2048x128, .f32⟩
  | .local _ .vmem, ⟨22, _⟩ => ⟨S128x1, .f32⟩
  | .local _ .vmem, ⟨23, _⟩ => ⟨S1, .f32⟩
  | .local _ .vmem, ⟨24, _⟩ => ⟨S2048x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem1_0 : DmaSem sig := 22
abbrev cc4_sem2_0 : DmaSem sig := 23
abbrev cc4_sem3_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  pads_S100000_S102400_024000 : S100000.Pads (![0] : Fin 1 → Nat) ![2400] ![0] S102400
  h_S_ : 0 < S_.numel
  inb_S4096_S4096_0 : ∀ a, (![0] : Fin 1 → Nat) a + S4096.size a ≤ S4096.size a
  h_S4096 : 0 < S4096.numel
  shapeCasts_S4096_S4096 : S4096.ShapeCasts S4096
  iota_S4096x100_d1_w32 : S4096x100.Iotas .tc 32 [1]
  shapeCasts_S4096_S4096x1 : S4096.ShapeCasts S4096x1
  broadcasts_S4096x1_S4096x100 : S4096x1.Broadcasts S4096x100
  natLt_1_32 : 1 < 32
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S4096x128_S4096x128_0_0 : ∀ a, (![0, 0] : Fin 2 → Nat) a + S4096x128.size a ≤ S4096x128.size a
  h_S4096x128 : 0 < S4096x128.numel
  slices_S102400x128_S100000x128_0_0 : S102400x128.Slices ![0, 0] S100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  dot_S4096x100_S100x128_S4096x128_1_0_0_1_n_n_wf : DotDims.WF S4096x100 S100x128 S4096x128 [1] [0] [0] [1] [] []
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S2048x128_S100000x1_S100000x128_1_0_0_1_wf : ScatterDims.WF S2048x128 S100000x1 S100000x128 [1] [0] [0] 1
  scatter_S2048x1_S100000x1_S100000x1_1_0_0_1_wf : ScatterDims.WF S2048x1 S100000x1 S100000x1 [1] [0] [0] 1
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S102400.size a
  hwx0_0 : ∀ i : grid0.Coords, EltTy.bits .i32 = 32 ∨ (Rect.block (s := S102400) S4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S102400x128.size a
  hwx0_2 : ∀ i : grid0.Coords, EltTy.bits .f32 = 32 ∨ (Rect.block (s := S102400x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S2048x128.size a
  hwx4_0 : ∀ i : grid4.Coords, EltTy.bits .f32 = 32 ∨ (Rect.block (s := S2048x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1.size a ≤ S1.size a
  hwx4_2 : ∀ i : grid4.Coords, EltTy.bits .f32 = 32 ∨ (Rect.block (s := S1) S1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048x1.size a ≤ S2048x1.size a
  hwx4_3 : ∀ i : grid4.Coords, EltTy.bits .f32 = 32 ∨ (Rect.block (s := S2048x1) S2048x1.size (cc4_transform_3 i) (hinb4_3 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S4096x100_S100x128_S4096x128_1_0_0_1_n_n : DotDims S4096x100 S100x128 S4096x128 where
  lhsContracting := [1]
  rhsContracting := [0]
  lhsNonContracting := [0]
  rhsNonContracting := [1]
  lhsBatch := []
  rhsBatch := []
  wf := dot_S4096x100_S100x128_S4096x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v27) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S2048x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S2048x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000 : Shape := ⟨1, ![100000]⟩
abbrev S2x400000 : Shape := ⟨2, ![2, 400000]⟩
abbrev S100x128 : Shape := ⟨2, ![100, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S100000x1 : Shape := ⟨2, ![100000, 1]⟩
abbrev S100000x128 : Shape := ⟨2, ![100000, 128]⟩
abbrev S500000x128 : Shape := ⟨2, ![500000, 128]⟩
abbrev S1x128 : Shape := ⟨2, ![1, 128]⟩
abbrev S2048x128 : Shape := ⟨2, ![2048, 128]⟩
abbrev S2048x1 : Shape := ⟨2, ![2048, 1]⟩
abbrev S1x1 : Shape := ⟨2, ![1, 1]⟩
abbrev S2048 : Shape := ⟨1, ![2048]⟩

abbrev nBuf : Space → Nat
  | .hbm => 118
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x400000, .i32⟩
  | .hbm, ⟨2, _⟩ => ⟨S100000, .i32⟩
  | .hbm, ⟨3, _⟩ => ⟨S100x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x400000, .i32⟩
  | .hbm, ⟨12, _⟩ => ⟨S400000, .i32⟩
  | .hbm, ⟨13, _⟩ => ⟨S500000, .i32⟩
  | .hbm, ⟨14, _⟩ => ⟨S1x400000, .i32⟩
  | .hbm, ⟨15, _⟩ => ⟨S400000, .i32⟩
  | .hbm, ⟨16, _⟩ => ⟨S500000, .i32⟩
  | .hbm, ⟨17, _⟩ => ⟨S_, .f32⟩
  | .hbm, ⟨18, _⟩ => ⟨S500000, .f32⟩
  | .hbm, ⟨19, _⟩ => ⟨S_, .f32⟩
  | .hbm, ⟨20, _⟩ => ⟨S100000, .f32⟩
  | .hbm, ⟨21, _⟩ => ⟨S500000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000, .f32⟩
  | .hbm, ⟨42, _⟩ => ⟨S500000, .f32⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .i32⟩
  | .hbm, ⟨47, _⟩ => ⟨S100000, .i32⟩
  | .hbm, ⟨48, _⟩ => ⟨S100000, .i32⟩
  | .hbm, ⟨49, _⟩ => ⟨S100000, .i32⟩
  | .hbm, ⟨50, _⟩ => ⟨S100000x1, .i32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S500000x1, .f32⟩
  | .hbm, ⟨63, _⟩ => ⟨S500000x128, .f32⟩
  | .hbm, ⟨64, _⟩ => ⟨S500000x128, .f32⟩
  | .hbm, ⟨65, _⟩ => ⟨S_, .f32⟩
  | .hbm, ⟨66, _⟩ => ⟨S100000x128, .f32⟩
  | .hbm, ⟨67, _⟩ => ⟨S500000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x128, .f32⟩
  | .hbm, ⟨85, _⟩ => ⟨S500000x1, .f32⟩
  | .hbm, ⟨86, _⟩ => ⟨S500000x128, .f32⟩
  | .hbm, ⟨87, _⟩ => ⟨S500000x128, .f32⟩
  | .hbm, ⟨88, _⟩ => ⟨S_, .f32⟩
  | .hbm, ⟨89, _⟩ => ⟨S100000x128, .f32⟩
  | .hbm, ⟨90, _⟩ => ⟨S500000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S2048x128, .f32⟩
  | .hbm, ⟨100, _⟩ => ⟨S100000x1, .i32⟩
  | .hbm, ⟨101, _⟩ => ⟨S2048x128, .f32⟩
  | .hbm, ⟨102, _⟩ => ⟨S_, .f32⟩
  | .hbm, ⟨103, _⟩ => ⟨S100000x1, .f32⟩
  | .hbm, ⟨104, _⟩ => ⟨S_, .f32⟩
  | .hbm, ⟨105, _⟩ => ⟨S2048x1, .f32⟩
  | .hbm, ⟨106, _⟩ => ⟨S100000x1, .i32⟩
  | .hbm, ⟨107, _⟩ => ⟨S2048x1, .f32⟩
  | .hbm, ⟨108, _⟩ => ⟨S_, .f32⟩
  | .hbm, ⟨109, _⟩ => ⟨S2048x1, .f32⟩
  | .hbm, ⟨110, _⟩ => ⟨S2048x1, .f32⟩
  | .hbm, ⟨111, _⟩ => ⟨S2048x128, .f32⟩
  | .hbm, ⟨112, _⟩ => ⟨S2048x128, .f32⟩
  | .hbm, ⟨113, _⟩ => ⟨S2048x1, .f32⟩
  | .hbm, ⟨114, _⟩ => ⟨S1x1, .f32⟩
  | .hbm, ⟨115, _⟩ => ⟨S2048x1, .f32⟩
  | .hbm, ⟨116, _⟩ => ⟨S2048x1, .f32⟩
  | .hbm, ⟨117, _⟩ => ⟨S2048, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_cst : Ref sig .tc := ⟨.hbm, 72, rfl⟩
abbrev main_call0_v0 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S_S100000x1 : S_.BroadcastsInDim S100000x1 (![] : Fin 0 → Fin S100000x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100x128_S100000x1_S100000x128_1_0_n_n_0_1_1128_wf : GatherDims.WF S100x128 S100000x1 S100000x128 [1] [0] [] [0] [] 1 ![1, 128]
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S2048x128_S100000x1_S100000x128_1_0_0_1_wf : ScatterDims.WF S2048x128 S100000x1 S100000x128 [1] [0] [0] 1
  scatter_S2048x1_S100000x1_S100000x1_1_0_0_1_wf : ScatterDims.WF S2048x1 S100000x1 S100000x1 [1] [0] [0] 1
  dot_S2048x128_S128x1_S2048x1_1_0_0_1_n_n_wf : DotDims.WF S2048x128 S128x1 S2048x1 [1] [0] [0] [1] [] []

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.Lookup.lean ====
/-
  A row lookup written as a sum: row `n` of the result is the sum over the 100 table rows `k` of the table row
  times the indicator of `x n = k`. For `x n` in range exactly one term is left, the table's row `x n`; for a word
  outside the table every term vanishes.
-/
import proofs.«413399_j3264175145167_1_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

/-- The indicator-weighted sum of the table's rows, over 102400 index words (the 100000 nodes and a padding tail). -/
def lookupRows (xp : IVec S102400 32) (e : FVec Ideal S100x128 .f32) : FVec Ideal S102400x128 .f32 :=
  fun i => ∑ k : Fin 100, (if xp (ValueIdx.ix1 (i 0)) = BitVec.ofNat 32 k.val then (1 : EReal) else 0) * e (ValueIdx.ix2 k (i 1))

end Cert.KernelIdeal.Val

end
-- ==== Proof.Region0.lean ====
/-
  Region 0: each block of 4096 index words is compared with 0 … 99 and the 0/1 matrix multiplied with the table;
  over the 25 blocks the output array is the indicator-weighted sum of the table's rows.
-/
import proofs.«413399_j3264175145167_1_alg».proof.Proof.Gen.KernelIdeal.Frame
import proofs.«413399_j3264175145167_1_alg».proof.Proof.Lookup
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- A comparison word widened to 32 bits and read as a signed integer is the real indicator of the equality. -/
theorem indicator_word (a b : BitVec 32) :
    FloatOps.sitofp (F := Ideal) .f32 ((IntOp.cmpi .eq a b).setWidth 32) = (if a = b then (1 : EReal) else 0) := by
  show (((BitVec.setWidth 32 (IntOp.cmpi .eq a b)).toInt : ℝ) : EReal) = _
  unfold IntOp.cmpi
  by_cases h : a = b
  · subst h; simp
  · have hb : (a == b) = false := by simpa using h
    simp [hb, h]

/-- The column of index words spread along the rows: entry (p, k) is word p. -/
theorem column_spread (x0 : Vec Ideal S4096 .i32) (p : Fin 4096) (k : Fin 100) :
    broadcastTo S4096x100 (shapeCast S4096x1 (shapeCast S4096 x0 shapeCasts_S4096_S4096) shapeCasts_S4096_S4096x1)
      broadcasts_S4096x1_S4096x100 (ValueIdx.ix2 p k) = x0 (ValueIdx.ix1 p) := by
  refine (broadcastTo_apply _ broadcasts_S4096x1_S4096x100 (ValueIdx.ix2 p k) (ValueIdx.ix2 p (0 : Fin 1)) fun ax => ?_).trans ?_
  · match ax with
    | ⟨0, _⟩ => rfl
    | ⟨1, _⟩ => rfl
  · refine (shapeCast_apply _ shapeCasts_S4096_S4096x1 (ValueIdx.ix2 p (0 : Fin 1)) (ValueIdx.ix1 p) ?_).trans ?_
    · rw [Shape.rowMajor_val_two, Shape.rowMajor_val_one]
      show p.val = p.val * 1 + 0
      omega
    · rw [shapeCast_self]

/-! The product's operand indices at output entry i and shared index q, axis by axis: the left operand is read at
    (row of i, q), the right operand at (q, column of i). -/

theorem rowsByTable_lhs_0 (i : S4096x128.Idx) (q : dot_S4096x100_S100x128_S4096x128_1_0_0_1_n_n.contr.Idx) :
    (dot_S4096x100_S100x128_S4096x128_1_0_0_1_n_n.lhsIdx i q 0).val = (i 0).val := by
  unfold DotDims.lhsIdx
  rw [dif_neg (show ¬(0 : Fin S4096x100.rank) ∈ dot_S4096x100_S100x128_S4096x128_1_0_0_1_n_n.lhsBatch by decide), dif_pos (show (0 : Fin S4096x100.rank) ∈ dot_S4096x100_S100x128_S4096x128_1_0_0_1_n_n.lhsNonContracting by decide)]
  rfl
theorem rowsByTable_lhs_1 (i : S4096x128.Idx) (q : dot_S4096x100_S100x128_S4096x128_1_0_0_1_n_n.contr.Idx) :
    (dot_S4096x100_S100x128_S4096x128_1_0_0_1_n_n.lhsIdx i q 1).val = (q ⟨0, by decide⟩).val :=
  dot_S4096x100_S100x128_S4096x128_1_0_0_1_n_n.lhsIdx_val_of_single rfl i q
theorem rowsByTable_rhs_0 (i : S4096x128.Idx) (q : dot_S4096x100_S100x128_S4096x128_1_0_0_1_n_n.contr.Idx) :
    (dot_S4096x100_S100x128_S4096x128_1_0_0_1_n_n.rhsIdx i q 0).val = (q ⟨0, by decide⟩).val :=
  dot_S4096x100_S100x128_S4096x128_1_0_0_1_n_n.rhsIdx_val_of_single rfl i q
theorem rowsByTable_rhs_1 (i : S4096x128.Idx) (q : dot_S4096x100_S100x128_S4096x128_1_0_0_1_n_n.contr.Idx) :
    (dot_S4096x100_S100x128_S4096x128_1_0_0_1_n_n.rhsIdx i q 1).val = (i 1).val := by
  unfold DotDims.rhsIdx
  rw [dif_neg (show ¬(1 : Fin S100x128.rank) ∈ dot_S4096x100_S100x128_S4096x128_1_0_0_1_n_n.rhsBatch by decide), dif_pos (show (1 : Fin S100x128.rank) ∈ dot_S4096x100_S100x128_S4096x128_1_0_0_1_n_n.rhsNonContracting by decide)]
  rfl

/-- A product of a [4096,100] matrix with a [100,128] matrix into a zero accumulator, entry (p, q): the sum over the
    shared axis of left (p, k) times right (k, q). -/
theorem rowsByTable_apply (a : FVec Ideal S4096x100 .bf16) (b : FVec Ideal S100x128 .bf16) (p : Fin 4096) (q : Fin 128) :
    FloatOps.matmul dot_S4096x100_S100x128_S4096x128_1_0_0_1_n_n none a b (constant (F := Ideal) S4096x128 .f32 0x00000000#32) (ValueIdx.ix2 p q)
      = ∑ k : Fin 100, a (ValueIdx.ix2 p k) * b (ValueIdx.ix2 k q) := by
  rw [Ideal.matmul_constant_zero_apply, ← Equiv.sum_comp (ValueIdx.contrEquiv1 dot_S4096x100_S100x128_S4096x128_1_0_0_1_n_n 100 rfl rfl).symm]
  refine Finset.sum_congr rfl fun k _ => ?_
  have hk := ValueIdx.contrEquiv1_symm_val dot_S4096x100_S100x128_S4096x128_1_0_0_1_n_n 100 rfl rfl k
  have el : dot_S4096x100_S100x128_S4096x128_1_0_0_1_n_n.lhsIdx (ValueIdx.ix2 p q) ((ValueIdx.contrEquiv1 dot_S4096x100_S100x128_S4096x128_1_0_0_1_n_n 100 rfl rfl).symm k) = ValueIdx.ix2 p k := funext fun a => Fin.ext (by
    match a with
    | ⟨0, _⟩ => exact rowsByTable_lhs_0 _ _
    | ⟨1, _⟩ => exact (rowsByTable_lhs_1 _ _).trans hk)
  have er : dot_S4096x100_S100x128_S4096x128_1_0_0_1_n_n.rhsIdx (ValueIdx.ix2 p q) ((ValueIdx.contrEquiv1 dot_S4096x100_S100x128_S4096x128_1_0_0_1_n_n 100 rfl rfl).symm k) = ValueIdx.ix2 k q := funext fun a => Fin.ext (by
    match a with
    | ⟨0, _⟩ => exact (rowsByTable_rhs_0 _ _).trans hk
    | ⟨1, _⟩ => exact rowsByTable_rhs_1 _ _)
  rw [el, er]

/-- The body at entry (p, q) of its block: the table's rows weighted by the indicator of "word p is k". -/
theorem body_apply (x0 : Vec Ideal S4096 .i32) (e : Vec Ideal S100x128 .f32) (p : Fin 4096) (q : Fin 128) :
    k0_pay1 (F := Ideal) x0 e (ValueIdx.ix2 p q)
      = ∑ k : Fin 100, (if x0 (ValueIdx.ix1 p) = BitVec.ofNat 32 k.val then (1 : EReal) else 0) * e (ValueIdx.ix2 k q) := by
  unfold k0_pay1
  refine (rowsByTable_apply _ _ p q).trans ?_
  refine Finset.sum_congr rfl fun k _ => ?_
  show FloatOps.sitofp (F := Ideal) .f32 ((IntOp.cmpi .eq
      (broadcastTo S4096x100 (shapeCast S4096x1 (shapeCast S4096 x0 shapeCasts_S4096_S4096) shapeCasts_S4096_S4096x1)
        broadcasts_S4096x1_S4096x100 (ValueIdx.ix2 p k))
      (iota .tc S4096x100 32 [1] iota_S4096x100_d1_w32 (ValueIdx.ix2 p k))).setWidth 32) * e (ValueIdx.ix2 k q) = _
  rw [column_spread, iota_single_apply, indicator_word]

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block index maps over the 25 points: the index block and the output block both sit at block t along the rows,
    the table's block is always the whole table, and the output's column block is the first. -/
theorem block_positions : ∀ t : Fin cfg0.N, win0_0.index t (0 : Fin 1) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the row lookup of the whole index array in the whole table. -/
theorem block_written (c : Dev nD) (t : Fin cfg0.N) :
    (dat0 (F := Ideal) V c).flushed 2 t
      = ((cfg0.win 2).blk t).view.read (Elt Ideal) (lookupRows (V c main_v27) (V c main_arg3)) := by
  show (cfg0.win 2).cut (grid0.coords t) ((dat0 (F := Ideal) V c).after 2 t) = _
  rw [after0_2]
  unfold out0_2
  rw [View.canon_unit_zero zero_offsets2]
  simp only [View.ld_unit_zero (S := S4096) zero_offsets1, View.ld_unit_zero (S := S100x128) zero_offsets2]
  funext j
  obtain ⟨p, q, rfl⟩ : ∃ (p : Fin 4096) (q : Fin 128), j = ValueIdx.ix2 p q := ⟨j 0, j 1, ValueIdx.eq_ix2 j⟩
  show k0_pay1 (F := Ideal) (iblk0 V c 0 t) (iblk0 V c 1 t) (ValueIdx.ix2 p q)
    = lookupRows (V c main_v27) (V c main_arg3) (((cfg0.win 2).blk t).view.emb (ValueIdx.ix2 p q))
  refine (body_apply _ _ p q).trans ?_
  unfold lookupRows
  refine Finset.sum_congr rfl fun k _ => ?_
  obtain ⟨e0, e1, e2, e3, e4⟩ := block_positions t
  show (if V c main_v27 (((cfg0.win 0).blk t).view.emb (ValueIdx.ix1 p)) = BitVec.ofNat 32 k.val then (1 : EReal) else 0)
      * V c main_arg3 (((cfg0.win 1).blk t).view.emb (ValueIdx.ix2 k q))
    = (if V c main_v27 (ValueIdx.ix1 ((((cfg0.win 2).blk t).view.emb (ValueIdx.ix2 p q)) 0)) = BitVec.ofNat 32 k.val then (1 : EReal) else 0)
      * V c main_arg3 (ValueIdx.ix2 k ((((cfg0.win 2).blk t).view.emb (ValueIdx.ix2 p q)) 1))
  have h0 : ((cfg0.win 0).blk t).view.emb (ValueIdx.ix1 p) = ValueIdx.ix1 ((((cfg0.win 2).blk t).view.emb (ValueIdx.ix2 p q)) 0) := by
    funext a; apply Fin.ext
    match a with
    | ⟨0, _⟩ => show win0_0.index t (0 : Fin 1) * 4096 + 1 * p.val = win0_2.index t (0 : Fin 2) * 4096 + 1 * p.val; omega
  have h1 : ((cfg0.win 1).blk t).view.emb (ValueIdx.ix2 k q) = ValueIdx.ix2 k ((((cfg0.win 2).blk t).view.emb (ValueIdx.ix2 p q)) 1) := by
    funext a; apply Fin.ext
    match a with
    | ⟨0, _⟩ => show win0_1.index t (0 : Fin 2) * 100 + 1 * k.val = k.val; omega
    | ⟨1, _⟩ => show win0_1.index t (1 : Fin 2) * 128 + 1 * q.val = win0_2.index t (1 : Fin 2) * 128 + 1 * q.val; omega
  rw [h0, h1]
  rfl

/-- An entry of the output array is in point t's block iff each coordinate lies in that block's range. -/
theorem mem_block0 (t : Fin cfg0.N) (i : S102400x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v28).slice (win0_2.rect t)).set ↔ _
  rw [View.set_slice_whole, Rect.mem_set_unit]
  exact Iff.rfl

/-- Row r lies in the block of point r / 4096: the 25 blocks of 4096 rows fill the 102400 rows. -/
theorem rows_covered (i : S102400x128.Idx) :
    ∃ t : Fin cfg0.N, (cfg0.win 2).flush t = true ∧ i ∈ ((cfg0.win 2).blk t).view.set := by
  have hi0 : (i 0).val < 102400 := (i 0).isLt
  have hi1 : (i 1).val < 128 := (i 1).isLt
  obtain ⟨t, ht⟩ : ∃ t : Fin cfg0.N, t.val = (i 0).val / 4096 :=
    ⟨⟨(i 0).val / 4096, Nat.lt_of_lt_of_eq (by omega) N_0.symm⟩, rfl⟩
  obtain ⟨e0, e1, e2, e3, e4⟩ := block_positions t
  refine ⟨t, flush0_2 t, ?_⟩
  rw [mem_block0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

theorem region0_val (c : Dev nD) :
    (dat0 (F := Ideal) V c).arrAt 2 cfg0.N = lookupRows (V c main_v27) (V c main_arg3) :=
  (dat0 (F := Ideal) V c).arrAt_eq_of_cover 2 (lookupRows (V c main_v27) (V c main_arg3))
    (fun t _ => block_written V c t) rows_covered

end Cert.KernelIdeal.Val

end
-- ==== Proof.Spec.lean ====
/-
  The model: a graph convolution network over 100000 nodes and an edge list with a self loop appended for every
  node. A node's feature row is looked up in an embedding table and multiplied by a weight matrix; each node then
  sums the rows of its in-neighbours, each weighted by 1/sqrt(deg src · deg dst); a bias is added and the result
  clipped at zero. That layer is applied twice. Then the rows of each graph are averaged and a linear head is
  applied. Each stage is one definition, so that a statement about one stage never opens another.
-/
import proofs.«413399_j3264175145167_1_alg».proof.Proof.Gen.ReferenceIdeal

noncomputable section

namespace Cert.Spec

open Idealize.ShloMosaic Cert.ReferenceIdeal Cert.ReferenceIdeal.Gen

variable {F : FTy → Type} [FloatOps F]

/-- Sources of the 400000 listed edges followed by the 100000 self loops. -/
def srcIdx (ei : IVec S2x400000 32) : IVec S500000 32 :=
  concatenate S500000 0 [⟨S400000, shapeCast _ (extractStridedSlice S1x400000 ![0, 0] ei slices_S2x400000_S1x400000_0_0) shapeCasts_S1x400000_S400000⟩, ⟨S100000, iotaInDim S100000 32 0⟩] concatenates_S400000_S100000_S500000_d0

/-- Targets of the listed edges followed by the self loops. -/
def dstIdx (ei : IVec S2x400000 32) : IVec S500000 32 :=
  concatenate S500000 0 [⟨S400000, shapeCast _ (extractStridedSlice S1x400000 ![1, 0] ei slices_S2x400000_S1x400000_1_0) shapeCasts_S1x400000_S400000⟩, ⟨S100000, iotaInDim S100000 32 0⟩] concatenates_S400000_S100000_S500000_d0

/-- A node index with a negative word counted from the end: `s + 100000` where `s < 0`, else `s`. -/
def wrapNode (s : IVec S500000 32) : IVec S500000 32 :=
  select (cmpi .slt s (broadcastInDim S500000 ![] bcast_S_S500000 (constantI S_ 32 0#32)))
    (addi s (broadcastInDim S500000 ![] bcast_S_S500000 (constantI S_ 32 100000#32))) s

/-- 1/sqrt of a node's in-degree (self loop included): the edges' targets scattered as ones, then rsqrt. -/
def invSqrtDeg (dst : IVec S500000 32) : FVec F S100000 .f32 :=
  Host.rsqrt (Host.scatterAdd scatter_S100000_S500000x1_S500000_n_0_0_1
    (broadcastInDim S100000 ![] bcast_S_S100000 (constant S_ .f32 0x00000000#32))
    (broadcastInDim S500000x1 ![0] bcast_S500000_S500000x1_0 dst)
    (broadcastInDim S500000 ![] bcast_S_S500000 (constant S_ .f32 0x3F800000#32)))

/-- An edge's weight: the product of its two endpoints' 1/sqrt(deg). -/
def edgeNormOf (src dst : IVec S500000 32) : FVec F S500000 .f32 :=
  mulf (Host.gather gather_S100000_S500000x1_S500000_n_0_n_n_0_1_1 (invSqrtDeg (F := F) dst) (broadcastInDim S500000x1 ![0] bcast_S500000_S500000x1_0 (wrapNode src)))
    (Host.gather gather_S100000_S500000x1_S500000_n_0_n_n_0_1_1 (invSqrtDeg (F := F) dst) (broadcastInDim S500000x1 ![0] bcast_S500000_S500000x1_0 (wrapNode dst)))

/-- The edges' weights, from the edge list. -/
def edgeNorm (ei : IVec S2x400000 32) : FVec F S500000 .f32 := edgeNormOf (F := F) (srcIdx ei) (dstIdx ei)

/-- Message passing with given endpoints and weights: row `dst e` of the result sums `norm e · hw[src e]`. -/
def aggregateWith (hw : FVec F S100000x128 .f32) (src dst : IVec S500000 32) (norm : FVec F S500000 .f32) : FVec F S100000x128 .f32 :=
  Host.scatterAdd scatter_S100000x128_S500000x1_S500000x128_1_0_0_1
    (broadcastInDim S100000x128 ![] bcast_S_S100000x128 (constant S_ .f32 0x00000000#32))
    (broadcastInDim S500000x1 ![0] bcast_S500000_S500000x1_0 dst)
    (mulf (Host.gather gather_S100000x128_S500000x1_S500000x128_1_0_n_n_0_1_1128 hw (broadcastInDim S500000x1 ![0] bcast_S500000_S500000x1_0 (wrapNode src)))
      (broadcastInDim S500000x128 ![0, 1] bcast_S500000x1_S500000x128_0_1 (broadcastInDim S500000x1 ![0] bcast_S500000_S500000x1_0 norm)))

/-- Message passing over the edge list. -/
def aggregate (hw : FVec F S100000x128 .f32) (ei : IVec S2x400000 32) : FVec F S100000x128 .f32 :=
  aggregateWith hw (srcIdx ei) (dstIdx ei) (edgeNorm (F := F) ei)

/-- Row `n` is row `x n` of the table (a negative word counting from the end, the index clamped into the table). -/
def embRows (x : IVec S100000 32) (e : FVec F S100x128 .f32) : FVec F S100000x128 .f32 :=
  Host.gather gather_S100x128_S100000x1_S100000x128_1_0_n_n_0_1_1128 e
    (broadcastInDim S100000x1 ![0] bcast_S100000_S100000x1_0
      (select (cmpi .slt x (broadcastInDim S100000 ![] bcast_S_S100000 (constantI S_ 32 0#32)))
        (addi x (broadcastInDim S100000 ![] bcast_S_S100000 (constantI S_ 32 100#32))) x))

/-- The rows times a 128 × 128 weight matrix. -/
def proj (h : FVec F S100000x128 .f32) (w : FVec F S128x128 .f32) : FVec F S100000x128 .f32 :=
  Host.dotGeneral dot_S100000x128_S128x128_S100000x128_1_0_0_1_n_n none h w

/-- max(a + b, 0), the bias added along the rows. -/
def biasRelu (a : FVec F S100000x128 .f32) (b : FVec F S128 .f32) : FVec F S100000x128 .f32 :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The mean row of each graph: the rows summed by graph id over the count of the graph's nodes (at least one). -/
def pool (h : FVec F S100000x128 .f32) (batch : IVec S100000 32) : FVec F S2048x128 .f32 :=
  Host.divf (Host.scatterAdd scatter_S2048x128_S100000x1_S100000x128_1_0_0_1 (broadcastInDim S2048x128 ![] bcast_S_S2048x128 (constant S_ .f32 0x00000000#32)) (broadcastInDim S100000x1 ![0] bcast_S100000_S100000x1_0 batch) h)
    (broadcastInDim S2048x128 ![0, 1] bcast_S2048x1_S2048x128_0_1
      (maximumf (Host.scatterAdd scatter_S2048x1_S100000x1_S100000x1_1_0_0_1 (broadcastInDim S2048x1 ![] bcast_S_S2048x1 (constant S_ .f32 0x00000000#32)) (broadcastInDim S100000x1 ![0] bcast_S100000_S100000x1_0 batch) (broadcastInDim S100000x1 ![] bcast_S_S100000x1 (constant S_ .f32 0x3F800000#32)))
        (broadcastInDim S2048x1 ![] bcast_S_S2048x1 (constant S_ .f32 0x3F800000#32))))

/-- The linear head: the pooled rows times a 128 × 1 weight, plus the bias. -/
def head (p : FVec F S2048x128 .f32) (w : FVec F S128x1 .f32) (b : FVec F S1 .f32) : FVec F S2048x1 .f32 :=
  addf (Host.dotGeneral dot_S2048x128_S128x1_S2048x1_1_0_0_1_n_n none p w)
    (broadcastInDim S2048x1 ![0, 1] bcast_S1x1_S2048x1_0_1 (broadcastInDim S1x1 ![1] bcast_S1_S1x1_1 b))

/-- The column as a vector. -/
def squeeze (y : FVec F S2048x1 .f32) : FVec F S2048 .f32 := shapeCast _ y shapeCasts_S2048x1_S2048

/-- The whole model. -/
def model (x : IVec S100000 32) (ei : IVec S2x400000 32) (batch : IVec S100000 32) (emb : FVec F S100x128 .f32)
    (w1 : FVec F S128x128 .f32) (b1 : FVec F S128 .f32) (w2 : FVec F S128x128 .f32) (b2 : FVec F S128 .f32)
    (fcw : FVec F S128x1 .f32) (fcb : FVec F S1 .f32) : FVec F S2048 .f32 :=
  squeeze (head (pool (biasRelu (aggregate (proj (biasRelu (aggregate (proj (embRows x emb) w1) ei) b1) w2) ei) b2) batch) fcw fcb)

end Cert.Spec

end
-- ==== Proof.EmbRows.lean ====
/-
  With every index word inside the table, the indicator-weighted sum restricted to the first 100000 rows is the
  table row lookup: the padding tail is cut off, a non-negative word is not wrapped, and a word below 100 is not clamped.
-/
import proofs.«413399_j3264175145167_1_alg».proof.Proof.Lookup
import proofs.«413399_j3264175145167_1_alg».proof.Proof.Spec
import Idealize.ShloMosaic.Lib.Pipeline.Value
import Idealize.ShloMosaic.Lib.ValueIdx
import Idealize.ShloMosaic.Lib.KernelVsHost
import Idealize.ShloMosaic.Lib.Affine
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- A word whose signed value lies in [0, 100) is the word of a natural number below 100, its signed value read as
    a natural number. -/
theorem embRows_word_of_small (w : BitVec 32) (h0 : 0 ≤ w.toInt) (h1 : w.toInt < 100) :
    w.toInt.toNat < 100 ∧ w = BitVec.ofNat 32 w.toInt.toNat := by
  have hc := BitVec.toInt_eq_toNat_cond w
  have hlt := w.isLt
  have hnat : w.toInt = (w.toNat : Int) := by
    split at hc
    · exact hc
    · omega
  refine ⟨by omega, ?_⟩
  apply BitVec.eq_of_toNat_eq
  rw [BitVec.toNat_ofNat, hnat, Int.toNat_natCast]
  omega

/-- Two naturals below 100 with the same 32-bit word are equal. -/
theorem embRows_ofNat_inj_small (a b : Nat) (ha : a < 100) (hb : b < 100) (h : BitVec.ofNat 32 a = BitVec.ofNat 32 b) : a = b := by
  have := congrArg BitVec.toNat h
  rw [BitVec.toNat_ofNat, BitVec.toNat_ofNat] at this
  omega

/-- The indicator-weighted sum over the table's rows keeps one term when the word is that of a row m: the table's
    row m. Zero times anything is zero and one times anything is itself over the extended reals. -/
theorem embRows_indicator_sum (w : BitVec 32) (m : Fin 100) (hw : w = BitVec.ofNat 32 m.val) (f : Fin 100 → EReal) :
    (∑ k : Fin 100, (if w = BitVec.ofNat 32 k.val then (1 : EReal) else 0) * f k) = f m := by
  rw [Finset.sum_eq_single m]
  · rw [if_pos hw, one_mul]
  · intro k _ hk
    rw [if_neg, zero_mul]
    intro hk'
    apply hk
    apply Fin.ext
    exact embRows_ofNat_inj_small _ _ k.isLt m.isLt (hk'.symm.trans hw)
  · intro h; exact absurd (Finset.mem_univ m) h

/-- The padded index words read at a row below 100000 are the index words there: the padding tail lies above. -/
theorem embRows_pad_apply (x : IVec S100000 32) (z : IVec S_ 32) (n : Fin 100000) (n' : Fin 102400) (hn : n'.val = n.val) :
    pad S102400 ![0] ![2400] ![0] x z pads_S100000_S102400_024000 h_S_ (ix1 n') = x (ix1 n) := by
  refine pad_apply_of_inside _ _ _ x z pads_S100000_S102400_024000 h_S_ (ix1 n') (ix1 n) ?_
  intro a
  match a with
  | ⟨0, _⟩ =>
    show n'.val = 0 + n.val * (0 + 1)
    omega

/-- The slice at offset zero of the indicator-weighted sum over the padded words, at row n and column j: the sum
    over the table's rows k of the indicator of "word n is k" times the table's entry (k, j). -/
theorem embRows_slice_lookup_apply (x : IVec S100000 32) (z : IVec S_ 32) (e : FVec Ideal S100x128 .f32)
    (n : Fin 100000) (j : Fin 128) :
    extractStridedSlice S100000x128 ![0, 0] (lookupRows (pad S102400 ![0] ![2400] ![0] x z pads_S100000_S102400_024000 h_S_) e)
        slices_S102400x128_S100000x128_0_0 (ix2 n j)
      = ∑ k : Fin 100, (if x (ix1 n) = BitVec.ofNat 32 k.val then (1 : EReal) else 0) * e (ix2 k j) := by
  have hn' : n.val < 102400 := by have := n.isLt; omega
  refine (extractStridedSlice_apply _ _ slices_S102400x128_S100000x128_0_0 (ix2 n j)
    (ix2 (⟨n.val, hn'⟩ : Fin 102400) j) ?_).trans ?_
  · intro a
    match a with
    | ⟨0, _⟩ => show n.val = 0 + n.val; omega
    | ⟨1, _⟩ => show j.val = 0 + j.val; omega
  · show (∑ k : Fin 100, (if pad S102400 ![0] ![2400] ![0] x z pads_S100000_S102400_024000 h_S_ (ix1 (⟨n.val, hn'⟩ : Fin 102400))
        = BitVec.ofNat 32 k.val then (1 : EReal) else 0) * e (ix2 k j)) = _
    rw [embRows_pad_apply x z n ⟨n.val, hn'⟩ rfl]

/-- The row gather's dimension numbers: the table's axis 0 is collapsed and takes the start index, its axis 1 is the
    result's offset axis 1. -/
abbrev embRowsGather : GatherDims Cert.ReferenceIdeal.S100x128 Cert.ReferenceIdeal.S100000x1 Cert.ReferenceIdeal.S100000x128 :=
  Cert.ReferenceIdeal.gather_S100x128_S100000x1_S100000x128_1_0_n_n_0_1_1128

/-- On the table's axis 0 the gather reads at the start index of row n, read signed and clamped to [0, 99]: no batching
    coordinate, and no offset coordinate on a collapsed axis. -/
theorem embRows_gather_axis0 (idx : IVec S100000x1 32) (n : Fin 100000) (j : Fin 128) :
    embRowsGather.start (ix2 n j) idx 0 + embRowsGather.batchCoord (ix2 n j) 0 + embRowsGather.offCoord (ix2 n j) 0
      = min (idx (ix2 n (0 : Fin 1))).toInt.toNat 99 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ embRowsGather.startIndexMap from List.mem_singleton.mpr rfl)]
  have hsi : embRowsGather.siIdx (ix2 n j) ⟨List.idxOf (0 : Fin 2) embRowsGather.startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- On the table's axis 1 the gather reads at the result's column: the start index map does not name this axis, it is
    not batching, and it is the operand axis the result's offset axis 1 runs over. -/
theorem embRows_gather_axis1 (idx : IVec S100000x1 32) (n : Fin 100000) (j : Fin 128) :
    embRowsGather.start (ix2 n j) idx 1 + embRowsGather.batchCoord (ix2 n j) 1 + embRowsGather.offCoord (ix2 n j) 1 = j.val := by
  rw [GatherDims.batchCoord_eq_zero _ _ _ List.not_mem_nil]
  unfold GatherDims.start
  rw [dif_neg (show ¬ (1 : Fin 2) ∈ embRowsGather.startIndexMap by decide)]
  unfold GatherDims.offCoord
  rw [dif_pos (show (1 : Fin 2) ∈ embRowsGather.sKept by decide)]
  show 0 + 0 + j.val = j.val
  omega

/-- The row gather read at (n, j): the table at column j of the row the start index names, that index read as a
    signed integer and clamped into the table's 100 rows. -/
theorem embRows_gather_apply (e : FVec Ideal S100x128 .f32) (idx : IVec S100000x1 32) (n : Fin 100000) (j : Fin 128) :
    Host.gather Cert.ReferenceIdeal.gather_S100x128_S100000x1_S100000x128_1_0_n_n_0_1_1128 e idx (ix2 n j)
      = e (ix2 (⟨min (idx (ix2 n (0 : Fin 1))).toInt.toNat 99, by omega⟩ : Fin 100) j) := by
  unfold Host.gather
  congr 1
  funext a
  refine Fin.ext ?_
  match a with
  | ⟨0, _⟩ => exact embRows_gather_axis0 idx n j
  | ⟨1, _⟩ => exact embRows_gather_axis1 idx n j

/-- The start indices' column at (n, 0): the index word n itself when that word is not negative. The comparison with
    zero reads the word signed, so its bit is 0 and the select keeps the unwrapped word. -/
theorem embRows_start_index_apply (x : IVec S100000 32) (n : Fin 100000) (h0 : 0 ≤ (x (ix1 n)).toInt) :
    broadcastInDim Cert.ReferenceIdeal.S100000x1 ![0] Cert.ReferenceIdeal.Gen.bcast_S100000_S100000x1_0
        (select (cmpi .slt x (broadcastInDim Cert.ReferenceIdeal.S100000 ![] Cert.ReferenceIdeal.Gen.bcast_S_S100000
            (constantI Cert.ReferenceIdeal.S_ 32 0#32)))
          (addi x (broadcastInDim Cert.ReferenceIdeal.S100000 ![] Cert.ReferenceIdeal.Gen.bcast_S_S100000
            (constantI Cert.ReferenceIdeal.S_ 32 100#32))) x)
        (ix2 n (0 : Fin 1))
      = x (ix1 n) := by
  refine (broadcastInDim_apply _ Cert.ReferenceIdeal.Gen.bcast_S100000_S100000x1_0 _ (ix2 n (0 : Fin 1)) (ix1 n) ?_).trans ?_
  · intro a
    match a with
    | ⟨0, _⟩ =>
      show n.val = if (100000 : Nat) = 1 then 0 else n.val
      rw [if_neg (by decide)]
  · rw [select_apply]
    have hc : cmpi .slt x (broadcastInDim Cert.ReferenceIdeal.S100000 ![] Cert.ReferenceIdeal.Gen.bcast_S_S100000
        (constantI Cert.ReferenceIdeal.S_ 32 0#32)) (ix1 n) = 0#1 := by
      apply eq_zero_of_ne_one
      intro h
      have hlt : (x (ix1 n)).toInt < (0#32 : BitVec 32).toInt := IntOp.cmpi_slt.mp h
      have hz : (0#32 : BitVec 32).toInt = 0 := by decide
      omega
    rw [hc, select_zero]

theorem lookup_slice_eq (x : IVec S100000 32) (z : IVec S_ 32) (e : FVec Ideal S100x128 .f32)
    (hx : ∀ i : S100000.Idx, 0 ≤ (x i).toInt ∧ (x i).toInt < 100) :
    extractStridedSlice S100000x128 ![0, 0] (lookupRows (pad S102400 ![0] ![2400] ![0] x z pads_S100000_S102400_024000 h_S_) e) slices_S102400x128_S100000x128_0_0
      = Cert.Spec.embRows (F := Ideal) x e := by
  funext i
  obtain ⟨n, j, rfl⟩ : ∃ (n : Fin 100000) (j : Fin 128), i = ix2 n j := ⟨i 0, i 1, eq_ix2 i⟩
  obtain ⟨hm, hw⟩ := embRows_word_of_small (x (ix1 n)) (hx (ix1 n)).1 (hx (ix1 n)).2
  rw [embRows_slice_lookup_apply x z e n j]
  unfold Cert.Spec.embRows
  rw [embRows_gather_apply]
  refine (embRows_indicator_sum (x (ix1 n)) ⟨(x (ix1 n)).toInt.toNat, hm⟩ hw (fun k => e (ix2 k j))).trans ?_
  show e (ix2 _ j) = e (ix2 _ j)
  congr 2
  refine Fin.ext ?_
  show (x (ix1 n)).toInt.toNat = min _ 99
  rw [embRows_start_index_apply x n (hx (ix1 n)).1]
  omega

end Cert.KernelIdeal.Val

end
-- ==== Proof.Region1.lean ====
/-
  Region 1: each block of 5000 rows times the 128 × 128 weight; over the 20 blocks the output array is the whole product.
-/
import proofs.«413399_j3264175145167_1_alg».proof.Proof.Gen.KernelIdeal.Frame
import proofs.«413399_j3264175145167_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-! ## The block product at an entry

  The body multiplies a 5000 × 128 block by the 128 × 128 weight into a zero accumulator. Over the extended reals the
  narrowing of both factors changes nothing, so entry (p, q) of the product is the sum over k of block (p, k) times
  weight (k, q). -/

/-- The left factor's row is the output's row. -/
theorem blockDot1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left factor's column is the summed index. -/
theorem blockDot1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the summed index. -/
theorem blockDot1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor's column is the output's column. -/
theorem blockDot1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the body's product: the sum over k of block (p, k) times weight (k, q). -/
theorem blockProduct1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [matmul]
  rw [shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockDot1_lhs_0 _ _
    | ⟨1, _⟩ => exact (blockDot1_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockDot1_rhs_0 _ _).trans hk
    | ⟨1, _⟩ => exact blockDot1_rhs_1 _ _)
  rw [el, er]
  rfl

/-! ## The whole product at an entry

  Entry (r, q) of the rows times the weight is the sum over k of row entry (r, k) times weight (k, q), for any rows and
  any weight. -/

/-- The left factor's row is the output's row. -/
theorem wholeDot1_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left factor's column is the summed index. -/
theorem wholeDot1_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right factor's row is the summed index. -/
theorem wholeDot1_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- The right factor's column is the output's column. -/
theorem wholeDot1_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (r, q) of the rows times the weight. -/
theorem proj1_apply (h : FVec Ideal Cert.ReferenceIdeal.S100000x128 .f32) (w : FVec Ideal Cert.ReferenceIdeal.S128x128 .f32) (r : Fin 100000) (q : Fin 128) :
    Cert.Spec.proj (F := Ideal) h w (ix2 r q) = ∑ k : Fin 128, h (ix2 r k) * w (ix2 k q) := by
  unfold Cert.Spec.proj
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact wholeDot1_lhs_0 _ _
    | ⟨1, _⟩ => exact (wholeDot1_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (wholeDot1_rhs_0 _ _).trans hk
    | ⟨1, _⟩ => exact wholeDot1_rhs_1 _ _)
  rw [el, er]

variable (V : (c : Dev nD) → (b : Ref sig .tc) → Buf (Elt Ideal) ((c : Thread nD τ).loc b))

/-! ## What a point writes back

  Point t reads rows 5000 t … 5000 t + 4999 of the rows array and the whole weight, and writes the same rows of the
  output. -/

theorem origin1_zero : (![0, 0] : Fin 2 → Nat) = fun _ => 0 := funext fun a => by fin_cases a <;> rfl

/-- The block index of each window at point t: the row windows sit at block (t, 0), the weight at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed1_eq_proj (c : Dev nD) (t : Fin cfg1.N) :
    (dat1 (F := Ideal) V c).flushed 2 t = ((cfg1.win 2).blk t).view.read (Elt Ideal) (Cert.Spec.proj (F := Ideal) (V c main_v29) (V c main_arg4)) := by
  show (cfg1.win 2).cut (grid1.coords t) ((dat1 (F := Ideal) V c).after 2 t) = _
  rw [after1_2]
  unfold out1_2
  rw [View.canon_unit_zero origin1_zero]
  simp only [View.ld_unit_zero (S := S5000x128) origin1_zero, View.ld_unit_zero (S := S128x128) origin1_zero]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q) = Cert.Spec.proj (F := Ideal) (V c main_v29) (V c main_arg4) (((cfg1.win 2).blk t).view.emb (ix2 p q))
  rw [blockProduct1_apply]
  obtain ⟨e00, e01, e10, e11, e20, e21⟩ := blockIndex1 t
  have ht : t.val < 20 := t.isLt
  have hp : p.val < 5000 := p.isLt
  have hrow : t.val * 5000 + p.val < 100000 := by omega
  have hout : ((cfg1.win 2).blk t).view.emb (ix2 p q) = ix2 (⟨t.val * 5000 + p.val, hrow⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hout, proj1_apply]
  refine Finset.sum_congr rfl fun k _ => ?_
  have h0 : iblk1 V c 0 t (ix2 p k) = V c main_v29 (ix2 (⟨t.val * 5000 + p.val, hrow⟩ : Fin 100000) k) := by
    show V c main_v29 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : iblk1 V c 1 t (ix2 k q) = V c main_arg4 (ix2 k q) := by
    show V c main_arg4 (((cfg1.win 1).blk t).view.emb (ix2 k q)) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  rw [h0, h1]

/-! ## The blocks fill the array

  Row r lies in the block of point r / 5000, so every entry of the output is written, and the output array ends
  holding the whole product. -/

/-- An entry is in point t's block when each coordinate is inside the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v30).slice (win1_2.rect t)).set ↔ _
  rw [View.set_slice_whole, Rect.mem_set_unit]
  exact Iff.rfl

/-- Every entry of the output is in the block of the point numbered by its row over 5000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < 20 := by omega
  obtain ⟨-, -, -, -, e20, e21⟩ := blockIndex1 ⟨(i 0).val / 5000, hlt⟩
  have e20' : win1_2.index ⟨(i 0).val / 5000, hlt⟩ (0 : Fin 2) = (i 0).val / 5000 := e20
  refine ⟨⟨(i 0).val / 5000, hlt⟩, flush1_2 _, ?_⟩
  rw [mem_block1]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    omega

/-- The output array after the region is the rows times the weight. -/
theorem region1_val (c : Dev nD) :
    (dat1 (F := Ideal) V c).arrAt 2 cfg1.N = Cert.Spec.proj (F := Ideal) (V c main_v29) (V c main_arg4) :=
  (dat1 (F := Ideal) V c).arrAt_eq_of_cover 2 _ (fun t _ => flushed1_eq_proj V c t) covered1

end Cert.KernelIdeal.Val

end
-- ==== Proof.Region2.lean ====
/-
  Region 2: each block of 5000 rows has the bias added, is clipped at zero and multiplied by the 128 × 128 weight;
  over the 20 blocks the output array is the product of the whole clipped array with the weight.

  Both sides are read entry by entry. Entry (p, q) of a block's result is the sum over k of
  max (x (p, k) + b k) 0 · w (k, q); entry (r, q) of the whole-array product is the same sum over row r of the
  whole array. Point t reads rows 5000 t … 5000 t + 4999, so what it writes back is block t of the whole-array
  product, and row r lies in the block of point r / 5000.
-/
import proofs.«413399_j3264175145167_1_alg».proof.Proof.Gen.KernelIdeal.Frame
import proofs.«413399_j3264175145167_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-! ## The block's result at an entry -/

/-- The kernel matmul's operand indices, axis by axis. -/
theorem matmulLhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmulLhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem matmulRhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem matmulRhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, entry by entry. -/
theorem blockMatmul_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact matmulLhs_row _ _
    | ⟨1, _⟩ => exact (matmulLhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (matmulRhs_row _ _).trans hk
    | ⟨1, _⟩ => exact matmulRhs_col _ _)
  rw [el, er]

/-- The body's result at row p, column q: the clipped biased row p against column q of the weight. -/
theorem k2_pay1_apply (x0 : Vec Ideal S5000x128 .f32) (b : Vec Ideal S128 .f32) (w : Vec Ideal S128x128 .f32) (p : Fin 5000) (q : Fin 128) :
    k2_pay1 x0 b w (ix2 p q) = ∑ k : Fin 128, max (x0 (ix2 p k) + b (ix1 k)) 0 * w (ix2 k q) := by
  unfold k2_pay1
  rw [blockMatmul_apply]
  refine Finset.sum_congr rfl fun k _ => ?_
  rw [truncf_apply, truncf_apply, maximumf_apply, addf_apply, broadcast_apply, shapeCast_self,
    broadcastTo_1b_ab_apply, shapeCast_a_1a_apply]
  show max (x0 (ix2 p k) + b (ix1 k)) (Ideal.ofBits .f32 0x00000000#32) * w (ix2 k q) = _
  rw [Ideal.ofBits_zero_f32]

/-! ## The whole-array product at an entry -/

/-- The reference product's operand indices, axis by axis. -/
theorem projLhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem projLhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem projRhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem projRhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole-array product, entry by entry: row p of the left factor against column q of the weight. -/
theorem proj_apply (h : FVec Ideal Cert.ReferenceIdeal.S100000x128 .f32) (w : FVec Ideal Cert.ReferenceIdeal.S128x128 .f32) (p : Fin 100000) (q : Fin 128) :
    Cert.Spec.proj (F := Ideal) h w (ix2 p q) = ∑ k : Fin 128, h (ix2 p k) * w (ix2 k q) := by
  unfold Cert.Spec.proj
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((ValueIdx.contrEquiv1 Cert.ReferenceIdeal.dot_S100000x128_S128x128_S100000x128_1_0_0_1_n_n 128 rfl rfl).symm k) = ix2 p k := funext fun a => Fin.ext (by
    match a with
    | ⟨0, _⟩ => exact projLhs_row _ _
    | ⟨1, _⟩ => exact (projLhs_col _ _).trans hk)
  have er : Cert.ReferenceIdeal.dot_S100000x128_S128x128_S100000x128_1_0_0_1_n_n.rhsIdx (ix2 p q) ((ValueIdx.contrEquiv1 Cert.ReferenceIdeal.dot_S100000x128_S128x128_S100000x128_1_0_0_1_n_n 128 rfl rfl).symm k) = ix2 k q := funext fun a => Fin.ext (by
    match a with
    | ⟨0, _⟩ => exact (projRhs_row _ _).trans hk
    | ⟨1, _⟩ => exact projRhs_col _ _)
  rw [el, er]

/-- The bias added along the rows and the clip at zero, entry by entry. -/
theorem biasRelu_apply (a : FVec Ideal Cert.ReferenceIdeal.S100000x128 .f32) (b : FVec Ideal Cert.ReferenceIdeal.S128 .f32) (p : Fin 100000) (k : Fin 128) :
    Cert.Spec.biasRelu (F := Ideal) a b (ix2 p k) = max (a (ix2 p k) + b (ix1 k)) 0 := by
  unfold Cert.Spec.biasRelu
  rw [maximumf_apply, addf_apply]
  rw [broadcastInDim_apply _ Cert.ReferenceIdeal.Facts₀.bcast_S1x128_S100000x128_0_1 _ (ix2 p k) (ix2 (0 : Fin 1) k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])]
  rw [broadcastInDim_apply _ Cert.ReferenceIdeal.Facts₀.bcast_S128_S1x128_1 b (ix2 (0 : Fin 1) k) (ix1 k) (fun a => match a with
    | ⟨0, _⟩ => by show k.val = if (128 : Nat) = 1 then 0 else k.val; rw [if_neg (by decide)])]
  rw [broadcastInDim_apply _ Cert.ReferenceIdeal.Facts₀.bcast_S_S100000x128 _ (ix2 p k) ix0 (fun a => a.elim0)]
  rw [constant_apply, Ideal.ofBits_zero_f32]

variable (V : (c : Dev nD) → (b : Ref sig .tc) → Buf (Elt Ideal) ((c : Thread nD τ).loc b))

/-! ## What a point writes back, and the cover -/

/-- The offset of a whole-buffer read or write is the origin. -/
theorem origin2 : (![0, 0] : Fin 2 → Nat) = fun _ => 0 := funext fun a => by fin_cases a <;> rfl
/-- The same for a vector. -/
theorem origin1 : (![0] : Fin 1 → Nat) = fun _ => 0 := funext fun a => by fin_cases a <;> rfl

/-- Point t takes block t of the rows and writes block t of the output; the bias and the weight are taken whole. -/
theorem blockIndex : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The product of the clipped biased rows with the weight, entry by entry. -/
theorem spec_apply (a : FVec Ideal Cert.ReferenceIdeal.S100000x128 .f32) (b : FVec Ideal Cert.ReferenceIdeal.S128 .f32)
    (w : FVec Ideal Cert.ReferenceIdeal.S128x128 .f32) (p : Fin 100000) (q : Fin 128) :
    Cert.Spec.proj (F := Ideal) (Cert.Spec.biasRelu a b) w (ix2 p q) = ∑ k : Fin 128, max (a (ix2 p k) + b (ix1 k)) 0 * w (ix2 k q) := by
  rw [proj_apply]
  refine Finset.sum_congr rfl fun k _ => ?_
  rw [biasRelu_apply]

/-- What point t writes back is block t of the whole-array product: its rows are rows 5000 t + p of the array,
    and the bias and the weight are read whole. -/
theorem flushed_eq (c : Dev nD) (t : Fin cfg2.N) :
    (dat2 (F := Ideal) V c).flushed 3 t = ((cfg2.win 3).blk t).view.read (Elt Ideal)
      (Cert.Spec.proj (F := Ideal) (Cert.Spec.biasRelu (V c main_v43) (V c main_arg5)) (V c main_arg6)) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S128) origin1, View.ld_unit_zero (S := S128x128) origin2]
  obtain ⟨e0, e1, e2, e3, e4, e5, e6⟩ := blockIndex t
  funext j
  obtain ⟨p, q, rfl⟩ : ∃ (p : Fin 5000) (q : Fin 128), j = ix2 p q := ⟨j 0, j 1, eq_ix2 j⟩
  have ht : t.val < 20 := t.isLt
  have hrow : t.val * 5000 + p.val < 100000 := by have := p.isLt; omega
  have hemb : ((cfg2.win 3).blk t).view.emb (ix2 p q) = (ix2 (⟨t.val * 5000 + p.val, hrow⟩ : Fin 100000) q : S100000x128.Idx) := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 1 t) (iblk2 V c 2 t) (ix2 p q)
    = Cert.Spec.proj (F := Ideal) (Cert.Spec.biasRelu (V c main_v43) (V c main_arg5)) (V c main_arg6) (((cfg2.win 3).blk t).view.emb (ix2 p q))
  rw [hemb]
  refine (k2_pay1_apply _ _ _ p q).trans ?_
  refine Eq.trans ?_ (spec_apply _ _ _ ⟨_, hrow⟩ q).symm
  refine Finset.sum_congr rfl fun k _ => ?_
  have h0 : iblk2 V c 0 t (ix2 p k) = V c main_v43 (ix2 (⟨t.val * 5000 + p.val, hrow⟩ : Fin 100000) k) := by
    show V c main_v43 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : iblk2 V c 1 t (ix1 k) = V c main_arg5 (ix1 k) := by
    show V c main_arg5 (((cfg2.win 1).blk t).view.emb (ix1 k)) = _
    refine congrArg _ (funext fun a => Fin.ext ?_)
    match a with
    | ⟨0, _⟩ => show win2_1.index t (0 : Fin 1) * 128 + 1 * k.val = k.val; omega
  have h2 : iblk2 V c 2 t (ix2 k q) = V c main_arg6 (ix2 k q) := by
    show V c main_arg6 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  rw [h0, h1, h2]

/-- A row index lies in point t's output block exactly when it lies in that block's range on each axis. -/
theorem mem_block2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v44).slice (win2_3.rect t)).set ↔ _
  rw [View.set_slice_whole, Rect.mem_set_unit]
  exact Iff.rfl

/-- Row r lies in the block of point r / 5000, so the twenty blocks fill the output. -/
theorem blocks_cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hq : (i 0).val / 5000 < 20 := by omega
  obtain ⟨e0, e1, e2, e3, e4, e5, e6⟩ := blockIndex ⟨(i 0).val / 5000, hq⟩
  refine ⟨⟨(i 0).val / 5000, hq⟩, flush2_3 _, ?_⟩
  rw [mem_block2]
  intro a
  match a with
  | ⟨0, _⟩ =>
    show win2_3.index ⟨(i 0).val / 5000, hq⟩ (0 : Fin 2) * 5000 ≤ (i 0).val ∧ (i 0).val < win2_3.index ⟨(i 0).val / 5000, hq⟩ (0 : Fin 2) * 5000 + 5000
    rw [e5]
    show (i 0).val / 5000 * 5000 ≤ (i 0).val ∧ (i 0).val < (i 0).val / 5000 * 5000 + 5000
    omega
  | ⟨1, _⟩ =>
    show win2_3.index ⟨(i 0).val / 5000, hq⟩ (1 : Fin 2) * 128 ≤ (i 1).val ∧ (i 1).val < win2_3.index ⟨(i 0).val / 5000, hq⟩ (1 : Fin 2) * 128 + 128
    rw [e6]
    omega

/-- The output array after the region is the whole-array product. -/
theorem region2_val (c : Dev nD) :
    (dat2 (F := Ideal) V c).arrAt 3 cfg2.N
      = Cert.Spec.proj (F := Ideal) (Cert.Spec.biasRelu (V c main_v43) (V c main_arg5)) (V c main_arg6) :=
  (dat2 (F := Ideal) V c).arrAt_eq_of_cover 3 _ (fun t _ => flushed_eq V c t) blocks_cover

end Cert.KernelIdeal.Val

end
-- ==== Proof.Region3.lean ====
/-
  Region 3: each block of 5000 rows has the bias added and is clipped at zero; over the 20 blocks the whole array is.
-/
import proofs.«413399_j3264175145167_1_alg».proof.Proof.Gen.KernelIdeal.Frame
import proofs.«413399_j3264175145167_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-! ## One entry, in a block and in the whole array -/

/-- One entry of a block after the body: the row's entry plus the bias of its column, clipped below at zero. -/
theorem block3_entry (x0 : Vec Ideal S5000x128 .f32) (b : Vec Ideal S128 .f32) (p : Fin 5000) (q : Fin 128) :
    k3_pay1 (F := Ideal) x0 b (ix2 p q)
      = max (x0 (ix2 p q) + b (ix1 q)) (Ideal.ofBits .f32 0x00000000#32) := by
  unfold k3_pay1
  show max (shapeCast S5000x128 x0 shapeCasts_S5000x128_S5000x128 (ix2 p q)
      + broadcastTo S5000x128 (shapeCast S1x128 b shapeCasts_S128_S1x128) broadcasts_S1x128_S5000x128 (ix2 p q))
    (Ideal.ofBits .f32 0x00000000#32) = _
  rw [shapeCast_self, broadcastTo_1b_ab_apply, shapeCast_a_1a_apply]

/-- The bias laid out as one row: entry (0, q) is the bias at q. -/
theorem bias3_row_entry (b : Vec Ideal S128 .f32) (u : Fin 1) (q : Fin 128) :
    broadcastInDim Cert.ReferenceIdeal.S1x128 ![1] Cert.ReferenceIdeal.Gen.bcast_S128_S1x128_1 b (ix2 u q) = b (ix1 q) :=
  broadcastInDim_apply _ Cert.ReferenceIdeal.Gen.bcast_S128_S1x128_1 b (ix2 u q) (ix1 q) (fun a => match a with
    | ⟨0, _⟩ => by show q.val = if (128 : Nat) = 1 then 0 else q.val; rw [if_neg (by decide)])

/-- The one row repeated down the rows: entry (r, q) is the row's entry (0, q). -/
theorem bias3_rows_entry (y : Vec Ideal S1x128 .f32) (r : Fin 100000) (q : Fin 128) :
    broadcastInDim Cert.ReferenceIdeal.S100000x128 ![0, 1] Cert.ReferenceIdeal.Gen.bcast_S1x128_S100000x128_0_1 y (ix2 r q)
      = y (ix2 (0 : Fin 1) q) :=
  broadcastInDim_apply _ Cert.ReferenceIdeal.Gen.bcast_S1x128_S100000x128_0_1 y (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- One entry of the whole array under the model's stage: the same expression of the whole arrays. -/
theorem stage3_entry (a : Vec Ideal S100000x128 .f32) (b : Vec Ideal S128 .f32) (r : Fin 100000) (q : Fin 128) :
    Cert.Spec.biasRelu (F := Ideal) a b (ix2 r q)
      = max (a (ix2 r q) + b (ix1 q)) (Ideal.ofBits .f32 0x00000000#32) := by
  unfold Cert.Spec.biasRelu
  show max (a (ix2 r q) + broadcastInDim Cert.ReferenceIdeal.S100000x128 ![0, 1] Cert.ReferenceIdeal.Gen.bcast_S1x128_S100000x128_0_1
          (broadcastInDim Cert.ReferenceIdeal.S1x128 ![1] Cert.ReferenceIdeal.Gen.bcast_S128_S1x128_1 b) (ix2 r q))
      (Ideal.ofBits .f32 0x00000000#32) = _
  rw [bias3_rows_entry, bias3_row_entry]

/-! ## What each point writes back, and the 20 blocks together -/

variable (V : (c : Dev nD) → (b : Ref sig .tc) → Buf (Elt Ideal) ((c : Thread nD τ).loc b))

/-- The body reads and writes each staged block whole: from offset zero on every axis. -/
theorem zero_offsets3 : (![0, 0] : Fin 2 → Nat) = fun _ => 0 := funext fun a => by fin_cases a <;> rfl
theorem zero_offset3 : (![0] : Fin 1 → Nat) = fun _ => 0 := funext fun a => by fin_cases a; rfl

/-- The block index maps over the 20 points: the input rows' block and the output's block are both block t along the
    rows and block 0 along the columns. -/
theorem block_indices3 : ∀ t : Fin cfg3.N, win3_0.index t (0 : Fin 2) = t.val ∧ win3_0.index t (1 : Fin 2) = 0
    ∧ win3_2.index t (0 : Fin 2) = t.val ∧ win3_2.index t (1 : Fin 2) = 0
    ∧ win3_1.index t (0 : Fin 1) = 0 :=
  (by decide +kernel : ∀ t : Fin grid3.N, _)

/-- Point t writes back block t of the stage's whole-array result: entry (p, q) of the block is entry (5000 t + p, q) of
    the array, on the input rows and on the output alike, and the bias is read whole, so both sides are the same
    sum clipped at zero. -/
theorem flushed_block3 (c : Dev nD) (t : Fin cfg3.N) :
    (dat3 (F := Ideal) V c).flushed 2 t
      = ((cfg3.win 2).blk t).view.read (Elt Ideal) (Cert.Spec.biasRelu (F := Ideal) (V c main_v57) (V c main_arg7)) := by
  show (cfg3.win 2).cut (grid3.coords t) ((dat3 (F := Ideal) V c).after 2 t) = _
  rw [after3_2]
  unfold out3_2
  rw [View.canon_unit_zero zero_offsets3]
  simp only [View.ld_unit_zero (S := S5000x128) zero_offsets3, View.ld_unit_zero (S := S128) zero_offset3]
  obtain ⟨e0, e1, e2, e3, e4⟩ := block_indices3 t
  have ht : t.val < 20 := t.isLt
  funext j
  obtain ⟨p, q, rfl⟩ : ∃ (p : Fin 5000) (q : Fin 128), j = ix2 p q := ⟨j 0, j 1, eq_ix2 j⟩
  have hrow : t.val * 5000 + p.val < 100000 := by have := p.isLt; omega
  have hout : ((cfg3.win 2).blk t).view.emb (ix2 p q) = ix2 (⟨t.val * 5000 + p.val, hrow⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  have hin : ((cfg3.win 0).blk t).view.emb (ix2 p q) = ix2 (⟨t.val * 5000 + p.val, hrow⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have hbias : ((cfg3.win 1).blk t).view.emb (ix1 q) = ix1 q := by
    funext a; apply Fin.ext
    match a with
    | ⟨0, _⟩ => show win3_1.index t (0 : Fin 1) * 128 + 1 * q.val = q.val; omega
  show k3_pay1 (F := Ideal) (iblk3 V c 0 t) (iblk3 V c 1 t) (ix2 p q)
    = Cert.Spec.biasRelu (F := Ideal) (V c main_v57) (V c main_arg7) (((cfg3.win 2).blk t).view.emb (ix2 p q))
  rw [hout, stage3_entry]
  refine (block3_entry _ _ p q).trans ?_
  have h0 : iblk3 V c 0 t (ix2 p q) = V c main_v57 (ix2 (⟨t.val * 5000 + p.val, hrow⟩ : Fin 100000) q) :=
    congrArg (V c main_v57) hin
  have h1 : iblk3 V c 1 t (ix1 q) = V c main_arg7 (ix1 q) := congrArg (V c main_arg7) hbias
  rw [h0, h1]

/-- A row index lies in point t's block exactly when it is among the block's 5000 rows (and, trivially, its 128 columns). -/
theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v58).slice (win3_2.rect t)).set ↔ _
  rw [View.set_slice_whole, Rect.mem_set_unit]
  exact Iff.rfl

/-- Row r is written by point r / 5000: the 20 blocks of 5000 rows tile the 100000 rows. -/
theorem rows_covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < 20 := by omega
  obtain ⟨e0, e1, e2, e3, e4⟩ := block_indices3 (Fin.cast N_3.symm ⟨(i 0).val / 5000, hlt⟩)
  have e2' : win3_2.index (Fin.cast N_3.symm ⟨(i 0).val / 5000, hlt⟩) (0 : Fin 2) = (i 0).val / 5000 := e2
  refine ⟨Fin.cast N_3.symm ⟨(i 0).val / 5000, hlt⟩, flush3_2 _, ?_⟩
  rw [mem_block3]
  intro a
  match a with
  | ⟨0, _⟩ =>
    show win3_2.index (Fin.cast N_3.symm ⟨(i 0).val / 5000, hlt⟩) (0 : Fin 2) * 5000 ≤ (i 0).val
      ∧ (i 0).val < win3_2.index (Fin.cast N_3.symm ⟨(i 0).val / 5000, hlt⟩) (0 : Fin 2) * 5000 + 5000
    omega
  | ⟨1, _⟩ =>
    show win3_2.index (Fin.cast N_3.symm ⟨(i 0).val / 5000, hlt⟩) (1 : Fin 2) * 128 ≤ (i 1).val
      ∧ (i 1).val < win3_2.index (Fin.cast N_3.symm ⟨(i 0).val / 5000, hlt⟩) (1 : Fin 2) * 128 + 128
    omega

/-- After the 20 points the output array is the stage applied to the whole input: every point writes its block of that
    function, and the blocks cover every row. -/
theorem region3_val (c : Dev nD) :
    (dat3 (F := Ideal) V c).arrAt 2 cfg3.N = Cert.Spec.biasRelu (F := Ideal) (V c main_v57) (V c main_arg7) :=
  (dat3 (F := Ideal) V c).arrAt_eq_of_cover 2 _ (fun t _ => flushed_block3 V c t) rows_covered3

end Cert.KernelIdeal.Val

end
-- ==== Proof.Region4.lean ====
/-
  Region 4: the one block is the whole array: the pooled rows times the 128 × 1 weight, plus the bias.
-/
import proofs.«413399_j3264175145167_1_alg».proof.Proof.Gen.KernelIdeal.Frame
import proofs.«413399_j3264175145167_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Both index offsets of a whole two-axis window are zero. -/
theorem head_off2 : (![0, 0] : Fin 2 → Nat) = fun _ => 0 := funext fun a => by fin_cases a <;> rfl
/-- The index offset of a whole one-axis window is zero. -/
theorem head_off1 : (![0] : Fin 1 → Nat) = fun _ => 0 := funext fun a => by fin_cases a <;> rfl

/-- A vector of one entry has one index. -/
theorem head_bias_idx_eq (i i' : S1.Idx) : i = i' := funext fun a => Fin.ext (by
  match a with
  | ⟨0, _⟩ =>
    have h : (i 0).val < 1 := (i 0).isLt
    have h' : (i' 0).val < 1 := (i' 0).isLt
    show (i 0).val = (i' 0).val
    omega)

/-- The body's arithmetic is the linear head. A change of float format is the identity on extended reals and a cast to
    the same shape moves nothing, so the product into a zero accumulator is, entry by entry, 0 plus the sum over the
    contracted axis of the products of the same operand entries as the reference's product; and the bias, cast to
    [1, 1] and broadcast down the column, is at every row the bias's one entry, as it is after the reference's two
    broadcasts. -/
theorem head_pay_eq (x0 : Vec Ideal S2048x128 .f32) (w : Vec Ideal S128x1 .f32) (b : Vec Ideal S1 .f32) :
    k4_pay1 (F := Ideal) x0 w b = Cert.Spec.head (F := Ideal) x0 w b := by
  funext j
  unfold k4_pay1 Cert.Spec.head
  refine (ValueIdx.addf_apply _ _ j).trans (Eq.trans ?_ (ValueIdx.addf_apply _ _ j).symm)
  refine congrArg₂ (· + ·) ?_ ?_
  · refine (Ideal.matmul_constant_zero_apply dot_S2048x128_S128x1_S2048x1_1_0_0_1_n_n none _ _ j).trans ?_
    refine Eq.trans ?_ (Ideal.dotGeneral_apply Cert.ReferenceIdeal.dot_S2048x128_S128x1_S2048x1_1_0_0_1_n_n none _ x0 w j).symm
    rw [shapeCast_self]
    rfl
  · exact congrArg b (head_bias_idx_eq _ _)

/-- Every window's index map is constantly zero on the one-point grid. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- Window 0's block is the whole array of pooled rows. -/
theorem iblk4_0_eq (c : Dev nD) (t : Fin cfg4.N) : iblk4 (F := Ideal) V c 0 t = V c main_v69 := by
  obtain ⟨e0, e1, e2, e3, e4, e5, e6⟩ := idx_facts4 t
  funext j
  show V c main_v69 (((cfg4.win 0).blk t).view.emb j) = V c main_v69 j
  refine congrArg (V c main_v69) ?_
  funext a; apply Fin.ext
  match a with
  | ⟨0, _⟩ => show win4_0.index t (0 : Fin 2) * 2048 + 1 * (j 0).val = (j 0).val; omega
  | ⟨1, _⟩ => show win4_0.index t (1 : Fin 2) * 128 + 1 * (j 1).val = (j 1).val; omega

/-- Window 1's block is the whole 128 × 1 weight. -/
theorem iblk4_1_eq (c : Dev nD) (t : Fin cfg4.N) : iblk4 (F := Ideal) V c 1 t = V c main_arg8 := by
  obtain ⟨e0, e1, e2, e3, e4, e5, e6⟩ := idx_facts4 t
  funext j
  show V c main_arg8 (((cfg4.win 1).blk t).view.emb j) = V c main_arg8 j
  refine congrArg (V c main_arg8) ?_
  funext a; apply Fin.ext
  match a with
  | ⟨0, _⟩ => show win4_1.index t (0 : Fin 2) * 128 + 1 * (j 0).val = (j 0).val; omega
  | ⟨1, _⟩ => show win4_1.index t (1 : Fin 2) * 1 + 1 * (j 1).val = (j 1).val; omega

/-- Window 2's block is the whole one-entry bias. -/
theorem iblk4_2_eq (c : Dev nD) (t : Fin cfg4.N) : iblk4 (F := Ideal) V c 2 t = V c main_arg9 := by
  obtain ⟨e0, e1, e2, e3, e4, e5, e6⟩ := idx_facts4 t
  funext j
  show V c main_arg9 (((cfg4.win 2).blk t).view.emb j) = V c main_arg9 j
  refine congrArg (V c main_arg9) ?_
  funext a; apply Fin.ext
  match a with
  | ⟨0, _⟩ => show win4_2.index t (0 : Fin 1) * 1 + 1 * (j 0).val = (j 0).val; omega

/-- What the one point writes back is the output window's block, the whole column, of the linear head of the three
    arrays as the region finds them. -/
theorem flushed4_3_eq (c : Dev nD) (t : Fin cfg4.N) :
    (dat4 (F := Ideal) V c).flushed 3 t = ((cfg4.win 3).blk t).view.read (Elt Ideal)
      (Cert.Spec.head (F := Ideal) (V c main_v69) (V c main_arg8) (V c main_arg9)) := by
  show (cfg4.win 3).cut (grid4.coords t) ((dat4 (F := Ideal) V c).after 3 t) = _
  rw [after4_3]
  unfold out4_3
  rw [View.canon_unit_zero head_off2]
  simp only [View.ld_unit_zero (S := S2048x128) head_off2, View.ld_unit_zero (S := S128x1) head_off2, View.ld_unit_zero (S := S1) head_off1]
  rw [head_pay_eq, iblk4_0_eq, iblk4_1_eq, iblk4_2_eq]
  obtain ⟨e0, e1, e2, e3, e4, e5, e6⟩ := idx_facts4 t
  funext j
  show Cert.Spec.head (F := Ideal) (V c main_v69) (V c main_arg8) (V c main_arg9) j
    = Cert.Spec.head (F := Ideal) (V c main_v69) (V c main_arg8) (V c main_arg9) (((cfg4.win 3).blk t).view.emb j)
  refine congrArg (Cert.Spec.head (F := Ideal) (V c main_v69) (V c main_arg8) (V c main_arg9)) ?_
  funext a; apply Fin.ext
  match a with
  | ⟨0, _⟩ => show (j 0).val = win4_3.index t (0 : Fin 2) * 2048 + 1 * (j 0).val; omega
  | ⟨1, _⟩ => show (j 1).val = win4_3.index t (1 : Fin 2) * 1 + 1 * (j 1).val; omega

/-- An index of the column is in the point's block iff each coordinate is in the block's range on its axis. -/
theorem mem_blk4_3 (t : Fin cfg4.N) (i : S2048x1.Idx) :
    i ∈ ((cfg4.win 3).blk t).view.set ↔ ∀ a : Fin 2, win4_3.index t a * S2048x1.size a ≤ (i a).val ∧ (i a).val < win4_3.index t a * S2048x1.size a + S2048x1.size a := by
  show i ∈ ((View.whole main_v70).slice (win4_3.rect t)).set ↔ _
  rw [View.set_slice_whole, Rect.mem_set_unit]
  exact Iff.rfl

/-- The one block is the whole column. -/
theorem cover4_3_all (i : S2048x1.Idx) :
    ∃ t : Fin cfg4.N, (cfg4.win 3).flush t = true ∧ i ∈ ((cfg4.win 3).blk t).view.set := by
  refine ⟨t4_0, flush4_3 t4_0, ?_⟩
  obtain ⟨e0, e1, e2, e3, e4, e5, e6⟩ := idx_facts4 t4_0
  have hi0 : (i 0).val < 2048 := (i 0).isLt
  have hi1 : (i 1).val < 1 := (i 1).isLt
  rw [mem_blk4_3]
  intro a
  match a with
  | ⟨0, _⟩ => show win4_3.index t4_0 (0 : Fin 2) * 2048 ≤ (i 0).val ∧ (i 0).val < win4_3.index t4_0 (0 : Fin 2) * 2048 + 2048; omega
  | ⟨1, _⟩ => show win4_3.index t4_0 (1 : Fin 2) * 1 ≤ (i 1).val ∧ (i 1).val < win4_3.index t4_0 (1 : Fin 2) * 1 + 1; omega

theorem region4_val (c : Dev nD) :
    (dat4 (F := Ideal) V c).arrAt 3 cfg4.N = Cert.Spec.head (F := Ideal) (V c main_v69) (V c main_arg8) (V c main_arg9) :=
  (dat4 (F := Ideal) V c).arrAt_eq_of_cover 3 _ (fun t _ => flushed4_3_eq V c t) (fun i => cover4_3_all i)

end Cert.KernelIdeal.Val

end
-- ==== Proof.HostVals.lean ====
/-
  What each stretch of host operations between the regions leaves in the buffers the next region (or the result)
  reads, as a model stage of the buffers the stretch starts from.
-/
import proofs.«413399_j3264175145167_1_alg».proof.Proof.Gen.KernelIdeal.Frame
import proofs.«413399_j3264175145167_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The two stretches before the first region, over any starting buffers

The first stretch builds the edge endpoints and the edge weights from the edge list and touches no argument; the
second only pads the node ids, so every buffer other than its two results is left as it was. -/

/-- The padding stretch leaves every buffer but its scalar copy and the padded ids unchanged. -/
theorem pad_stretch_keeps (V : Valuation τ sig (Elt Ideal)) (b : Ref sig .tc) (h0 : b ≠ main_call0_v0) (h1 : b ≠ main_v27) :
    StableHlo.after (hostOps0_1 (F := Ideal)) V (Proc.devRef .tc b) = V (Proc.devRef .tc b) := by
  apply StableHlo.after_of_forall_not_mem
  intro op hop
  simp only [hostOps0_1, List.mem_cons, List.mem_nil_iff, or_false, List.not_mem_nil] at hop
  rcases hop with rfl | rfl
  · simp only [StableHlo.unary_writes, Finset.mem_singleton]; exact StableHlo.devRef_ne_of_ne h0
  · simp only [StableHlo.binary_writes, Finset.mem_singleton]; exact StableHlo.devRef_ne_of_ne h1

/-- The padded ids are the ids padded on the right with the scalar the stretch starts from. -/
theorem pad_stretch_ids (V : Valuation τ sig (Elt Ideal)) :
    StableHlo.after (hostOps0_1 (F := Ideal)) V (Proc.devRef .tc main_v27)
      = pad S102400 ![0] ![2400] ![0] (V (Proc.devRef .tc main_arg0)) (V (Proc.devRef .tc main_c_4)) pads_S100000_S102400_024000 h_S_ := by
  after_results_simp
  rfl

/-- The first stretch's sources: the first row of the edge list, then one self loop per node. -/
theorem stretch0_src (V : Valuation τ sig (Elt Ideal)) :
    StableHlo.after (hostOps0 (F := Ideal)) V (Proc.devRef .tc main_v3) = Cert.Spec.srcIdx (V (Proc.devRef .tc main_arg1)) := by
  after_results_simp
  rfl

/-- The first stretch's targets: the second row of the edge list, then one self loop per node. -/
theorem stretch0_dst (V : Valuation τ sig (Elt Ideal)) :
    StableHlo.after (hostOps0 (F := Ideal)) V (Proc.devRef .tc main_v6) = Cert.Spec.dstIdx (V (Proc.devRef .tc main_arg1)) := by
  after_results_simp
  rfl

/-- The first stretch's edge weights: the in-degrees counted by scattering ones at the targets, their inverse
    square roots read at both (wrapped) endpoints of each edge, and the two multiplied. -/
theorem stretch0_norm (V : Valuation τ sig (Elt Ideal)) :
    StableHlo.after (hostOps0 (F := Ideal)) V (Proc.devRef .tc main_v26) = Cert.Spec.edgeNorm (F := Ideal) (V (Proc.devRef .tc main_arg1)) := by
  after_results_simp
  rfl

/-- The first stretch does not write the node ids. -/
theorem stretch0_keeps_ids (V : Valuation τ sig (Elt Ideal)) :
    StableHlo.after (hostOps0 (F := Ideal)) V (Proc.devRef .tc main_arg0) = V (Proc.devRef .tc main_arg0) := by
  after_results_simp

/-! ## What the first region enters with -/

theorem W2_src (c : Dev nD) : W2 m ρ c (Proc.devRef .tc main_v3) = Cert.Spec.srcIdx (m ((c : Thread nD τ).loc main_arg1)) :=
  calc W2 m ρ c (Proc.devRef .tc main_v3)
    _ = W1 m ρ c (Proc.devRef .tc main_v3) := pad_stretch_keeps (W1 m ρ c) main_v3 (by decide) (by decide)
    _ = Cert.Spec.srcIdx (W0 m ρ c (Proc.devRef .tc main_arg1)) := stretch0_src (W0 m ρ c)
    _ = Cert.Spec.srcIdx (m ((c : Thread nD τ).loc main_arg1)) := rfl
theorem W2_dst (c : Dev nD) : W2 m ρ c (Proc.devRef .tc main_v6) = Cert.Spec.dstIdx (m ((c : Thread nD τ).loc main_arg1)) :=
  calc W2 m ρ c (Proc.devRef .tc main_v6)
    _ = W1 m ρ c (Proc.devRef .tc main_v6) := pad_stretch_keeps (W1 m ρ c) main_v6 (by decide) (by decide)
    _ = Cert.Spec.dstIdx (W0 m ρ c (Proc.devRef .tc main_arg1)) := stretch0_dst (W0 m ρ c)
    _ = Cert.Spec.dstIdx (m ((c : Thread nD τ).loc main_arg1)) := rfl
theorem W2_norm (c : Dev nD) : W2 m ρ c (Proc.devRef .tc main_v26) = Cert.Spec.edgeNorm (F := Ideal) (m ((c : Thread nD τ).loc main_arg1)) :=
  calc W2 m ρ c (Proc.devRef .tc main_v26)
    _ = W1 m ρ c (Proc.devRef .tc main_v26) := pad_stretch_keeps (W1 m ρ c) main_v26 (by decide) (by decide)
    _ = Cert.Spec.edgeNorm (F := Ideal) (W0 m ρ c (Proc.devRef .tc main_arg1)) := stretch0_norm (W0 m ρ c)
    _ = Cert.Spec.edgeNorm (F := Ideal) (m ((c : Thread nD τ).loc main_arg1)) := rfl
theorem W2_xpad (c : Dev nD) : W2 m ρ c (Proc.devRef .tc main_v27)
    = pad S102400 ![0] ![2400] ![0] (m ((c : Thread nD τ).loc main_arg0)) (W1 m ρ c (Proc.devRef .tc main_c_4)) pads_S100000_S102400_024000 h_S_ := by
  have ids : W1 m ρ c (Proc.devRef .tc main_arg0) = m ((c : Thread nD τ).loc main_arg0) :=
    calc W1 m ρ c (Proc.devRef .tc main_arg0)
      _ = W0 m ρ c (Proc.devRef .tc main_arg0) := stretch0_keeps_ids (W0 m ρ c)
      _ = m ((c : Thread nD τ).loc main_arg0) := rfl
  rw [← ids]
  exact pad_stretch_ids (W1 m ρ c)

/-! ## Between the regions: each stretch is one model stage of the buffers it starts from -/

theorem W4_rows (c : Dev nD) : W4 m ρ c (Proc.devRef .tc main_v29)
    = extractStridedSlice S100000x128 ![0, 0] (W3 m ρ c (Proc.devRef .tc main_v28)) slices_S102400x128_S100000x128_0_0 := by
  show StableHlo.after hostOps1 (W3 m ρ c) (Proc.devRef .tc main_v29) = _
  after_results
theorem W6_agg (c : Dev nD) : W6 m ρ c (Proc.devRef .tc main_v43)
    = Cert.Spec.aggregateWith (F := Ideal) (W5 m ρ c (Proc.devRef .tc main_v30)) (W5 m ρ c (Proc.devRef .tc main_v3)) (W5 m ρ c (Proc.devRef .tc main_v6)) (W5 m ρ c (Proc.devRef .tc main_v26)) := by
  show StableHlo.after hostOps2 (W5 m ρ c) (Proc.devRef .tc main_v43) = _
  after_results_simp
  rfl
theorem W8_agg (c : Dev nD) : W8 m ρ c (Proc.devRef .tc main_v57)
    = Cert.Spec.aggregateWith (F := Ideal) (W7 m ρ c (Proc.devRef .tc main_v44)) (W7 m ρ c (Proc.devRef .tc main_v3)) (W7 m ρ c (Proc.devRef .tc main_v6)) (W7 m ρ c (Proc.devRef .tc main_v26)) := by
  show StableHlo.after hostOps3 (W7 m ρ c) (Proc.devRef .tc main_v57) = _
  after_results_simp
  rfl
theorem W10_pool (c : Dev nD) : W10 m ρ c (Proc.devRef .tc main_v69)
    = Cert.Spec.pool (F := Ideal) (W9 m ρ c (Proc.devRef .tc main_v58)) (W9 m ρ c (Proc.devRef .tc main_arg2)) := by
  show StableHlo.after hostOps4 (W9 m ρ c) (Proc.devRef .tc main_v69) = _
  after_results_simp
  rfl
theorem W12_out (c : Dev nD) : W12 m ρ c (Proc.devRef .tc main_v71) = Cert.Spec.squeeze (F := Ideal) (W11 m ρ c (Proc.devRef .tc main_v70)) := by
  show StableHlo.after hostOps5 (W11 m ρ c) (Proc.devRef .tc main_v71) = _
  after_results
  rfl

end Cert.KernelIdeal.Val

end
-- ==== Proof.Carry.lean ====
/-
  Buffers no segment in between writes keep their contents: the arguments from the launch to the region or stretch
  that reads them, and the edge endpoints and weights from the first stretch to the two aggregations.
-/
import proofs.«413399_j3264175145167_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A stretch of host operations leaves a buffer as it was when the buffer is not the destination of any operation
    in the stretch: the destinations are listed and each is a different name. -/
macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments: from the launch memory up to the boundary where each is read -/

theorem W2_arg3 (c : Dev nD) : W2 m ρ c (Proc.devRef .tc main_arg3) = (m ((c : Thread nD τ).loc main_arg3)) :=
  calc W2 m ρ c (Proc.devRef .tc main_arg3)
    _ = W1 m ρ c (Proc.devRef .tc main_arg3) := by keeps hostOps0_1
    _ = W0 m ρ c (Proc.devRef .tc main_arg3) := by keeps hostOps0
    _ = m ((c : Thread nD τ).loc main_arg3) := rfl

theorem W4_arg4 (c : Dev nD) : W4 m ρ c (Proc.devRef .tc main_arg4) = (m ((c : Thread nD τ).loc main_arg4)) :=
  calc W4 m ρ c (Proc.devRef .tc main_arg4)
    _ = W3 m ρ c (Proc.devRef .tc main_arg4) := by keeps hostOps1
    _ = W2 m ρ c (Proc.devRef .tc main_arg4) := W3_of_ne m ρ c main_arg4 (by decide)
    _ = W1 m ρ c (Proc.devRef .tc main_arg4) := by keeps hostOps0_1
    _ = W0 m ρ c (Proc.devRef .tc main_arg4) := by keeps hostOps0
    _ = m ((c : Thread nD τ).loc main_arg4) := rfl

theorem W6_arg5 (c : Dev nD) : W6 m ρ c (Proc.devRef .tc main_arg5) = (m ((c : Thread nD τ).loc main_arg5)) :=
  calc W6 m ρ c (Proc.devRef .tc main_arg5)
    _ = W5 m ρ c (Proc.devRef .tc main_arg5) := by keeps hostOps2
    _ = W4 m ρ c (Proc.devRef .tc main_arg5) := W5_of_ne m ρ c main_arg5 (by decide)
    _ = W3 m ρ c (Proc.devRef .tc main_arg5) := by keeps hostOps1
    _ = W2 m ρ c (Proc.devRef .tc main_arg5) := W3_of_ne m ρ c main_arg5 (by decide)
    _ = W1 m ρ c (Proc.devRef .tc main_arg5) := by keeps hostOps0_1
    _ = W0 m ρ c (Proc.devRef .tc main_arg5) := by keeps hostOps0
    _ = m ((c : Thread nD τ).loc main_arg5) := rfl

theorem W6_arg6 (c : Dev nD) : W6 m ρ c (Proc.devRef .tc main_arg6) = (m ((c : Thread nD τ).loc main_arg6)) :=
  calc W6 m ρ c (Proc.devRef .tc main_arg6)
    _ = W5 m ρ c (Proc.devRef .tc main_arg6) := by keeps hostOps2
    _ = W4 m ρ c (Proc.devRef .tc main_arg6) := W5_of_ne m ρ c main_arg6 (by decide)
    _ = W3 m ρ c (Proc.devRef .tc main_arg6) := by keeps hostOps1
    _ = W2 m ρ c (Proc.devRef .tc main_arg6) := W3_of_ne m ρ c main_arg6 (by decide)
    _ = W1 m ρ c (Proc.devRef .tc main_arg6) := by keeps hostOps0_1
    _ = W0 m ρ c (Proc.devRef .tc main_arg6) := by keeps hostOps0
    _ = m ((c : Thread nD τ).loc main_arg6) := rfl

theorem W8_arg7 (c : Dev nD) : W8 m ρ c (Proc.devRef .tc main_arg7) = (m ((c : Thread nD τ).loc main_arg7)) :=
  calc W8 m ρ c (Proc.devRef .tc main_arg7)
    _ = W7 m ρ c (Proc.devRef .tc main_arg7) := by keeps hostOps3
    _ = W6 m ρ c (Proc.devRef .tc main_arg7) := W7_of_ne m ρ c main_arg7 (by decide)
    _ = W5 m ρ c (Proc.devRef .tc main_arg7) := by keeps hostOps2
    _ = W4 m ρ c (Proc.devRef .tc main_arg7) := W5_of_ne m ρ c main_arg7 (by decide)
    _ = W3 m ρ c (Proc.devRef .tc main_arg7) := by keeps hostOps1
    _ = W2 m ρ c (Proc.devRef .tc main_arg7) := W3_of_ne m ρ c main_arg7 (by decide)
    _ = W1 m ρ c (Proc.devRef .tc main_arg7) := by keeps hostOps0_1
    _ = W0 m ρ c (Proc.devRef .tc main_arg7) := by keeps hostOps0
    _ = m ((c : Thread nD τ).loc main_arg7) := rfl

theorem W9_arg2 (c : Dev nD) : W9 m ρ c (Proc.devRef .tc main_arg2) = (m ((c : Thread nD τ).loc main_arg2)) :=
  calc W9 m ρ c (Proc.devRef .tc main_arg2)
    _ = W8 m ρ c (Proc.devRef .tc main_arg2) := W9_of_ne m ρ c main_arg2 (by decide)
    _ = W7 m ρ c (Proc.devRef .tc main_arg2) := by keeps hostOps3
    _ = W6 m ρ c (Proc.devRef .tc main_arg2) := W7_of_ne m ρ c main_arg2 (by decide)
    _ = W5 m ρ c (Proc.devRef .tc main_arg2) := by keeps hostOps2
    _ = W4 m ρ c (Proc.devRef .tc main_arg2) := W5_of_ne m ρ c main_arg2 (by decide)
    _ = W3 m ρ c (Proc.devRef .tc main_arg2) := by keeps hostOps1
    _ = W2 m ρ c (Proc.devRef .tc main_arg2) := W3_of_ne m ρ c main_arg2 (by decide)
    _ = W1 m ρ c (Proc.devRef .tc main_arg2) := by keeps hostOps0_1
    _ = W0 m ρ c (Proc.devRef .tc main_arg2) := by keeps hostOps0
    _ = m ((c : Thread nD τ).loc main_arg2) := rfl

theorem W10_arg8 (c : Dev nD) : W10 m ρ c (Proc.devRef .tc main_arg8) = (m ((c : Thread nD τ).loc main_arg8)) :=
  calc W10 m ρ c (Proc.devRef .tc main_arg8)
    _ = W9 m ρ c (Proc.devRef .tc main_arg8) := by keeps hostOps4
    _ = W8 m ρ c (Proc.devRef .tc main_arg8) := W9_of_ne m ρ c main_arg8 (by decide)
    _ = W7 m ρ c (Proc.devRef .tc main_arg8) := by keeps hostOps3
    _ = W6 m ρ c (Proc.devRef .tc main_arg8) := W7_of_ne m ρ c main_arg8 (by decide)
    _ = W5 m ρ c (Proc.devRef .tc main_arg8) := by keeps hostOps2
    _ = W4 m ρ c (Proc.devRef .tc main_arg8) := W5_of_ne m ρ c main_arg8 (by decide)
    _ = W3 m ρ c (Proc.devRef .tc main_arg8) := by keeps hostOps1
    _ = W2 m ρ c (Proc.devRef .tc main_arg8) := W3_of_ne m ρ c main_arg8 (by decide)
    _ = W1 m ρ c (Proc.devRef .tc main_arg8) := by keeps hostOps0_1
    _ = W0 m ρ c (Proc.devRef .tc main_arg8) := by keeps hostOps0
    _ = m ((c : Thread nD τ).loc main_arg8) := rfl

theorem W10_arg9 (c : Dev nD) : W10 m ρ c (Proc.devRef .tc main_arg9) = (m ((c : Thread nD τ).loc main_arg9)) :=
  calc W10 m ρ c (Proc.devRef .tc main_arg9)
    _ = W9 m ρ c (Proc.devRef .tc main_arg9) := by keeps hostOps4
    _ = W8 m ρ c (Proc.devRef .tc main_arg9) := W9_of_ne m ρ c main_arg9 (by decide)
    _ = W7 m ρ c (Proc.devRef .tc main_arg9) := by keeps hostOps3
    _ = W6 m ρ c (Proc.devRef .tc main_arg9) := W7_of_ne m ρ c main_arg9 (by decide)
    _ = W5 m ρ c (Proc.devRef .tc main_arg9) := by keeps hostOps2
    _ = W4 m ρ c (Proc.devRef .tc main_arg9) := W5_of_ne m ρ c main_arg9 (by decide)
    _ = W3 m ρ c (Proc.devRef .tc main_arg9) := by keeps hostOps1
    _ = W2 m ρ c (Proc.devRef .tc main_arg9) := W3_of_ne m ρ c main_arg9 (by decide)
    _ = W1 m ρ c (Proc.devRef .tc main_arg9) := by keeps hostOps0_1
    _ = W0 m ρ c (Proc.devRef .tc main_arg9) := by keeps hostOps0
    _ = m ((c : Thread nD τ).loc main_arg9) := rfl

/-! ## The edge endpoints and weights: computed in the first stretch, read again by both aggregations -/

theorem W5_v3 (c : Dev nD) : W5 m ρ c (Proc.devRef .tc main_v3) = W2 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by keeps hostOps1
    _ = W2 m ρ c (Proc.devRef .tc main_v3) := W3_of_ne m ρ c main_v3 (by decide)

theorem W7_v3 (c : Dev nD) : W7 m ρ c (Proc.devRef .tc main_v3) = W2 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by keeps hostOps2
    _ = W4 m ρ c (Proc.devRef .tc main_v3) := W5_of_ne m ρ c main_v3 (by decide)
    _ = W3 m ρ c (Proc.devRef .tc main_v3) := by keeps hostOps1
    _ = W2 m ρ c (Proc.devRef .tc main_v3) := W3_of_ne m ρ c main_v3 (by decide)

theorem W5_v6 (c : Dev nD) : W5 m ρ c (Proc.devRef .tc main_v6) = W2 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := by keeps hostOps1
    _ = W2 m ρ c (Proc.devRef .tc main_v6) := W3_of_ne m ρ c main_v6 (by decide)

theorem W7_v6 (c : Dev nD) : W7 m ρ c (Proc.devRef .tc main_v6) = W2 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by keeps hostOps2
    _ = W4 m ρ c (Proc.devRef .tc main_v6) := W5_of_ne m ρ c main_v6 (by decide)
    _ = W3 m ρ c (Proc.devRef .tc main_v6) := by keeps hostOps1
    _ = W2 m ρ c (Proc.devRef .tc main_v6) := W3_of_ne m ρ c main_v6 (by decide)

theorem W5_v26 (c : Dev nD) : W5 m ρ c (Proc.devRef .tc main_v26) = W2 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := by keeps hostOps1
    _ = W2 m ρ c (Proc.devRef .tc main_v26) := W3_of_ne m ρ c main_v26 (by decide)

theorem W7_v26 (c : Dev nD) : W7 m ρ c (Proc.devRef .tc main_v26) = W2 m ρ c (Proc.devRef .tc main_v26) :=
  calc W7 m ρ c (Proc.devRef .tc main_v26)
    _ = W6 m ρ c (Proc.devRef .tc main_v26) := W7_of_ne m ρ c main_v26 (by decide)
    _ = W5 m ρ c (Proc.devRef .tc main_v26) := by keeps hostOps2
    _ = W4 m ρ c (Proc.devRef .tc main_v26) := W5_of_ne m ρ c main_v26 (by decide)
    _ = W3 m ρ c (Proc.devRef .tc main_v26) := by keeps hostOps1
    _ = W2 m ρ c (Proc.devRef .tc main_v26) := W3_of_ne m ρ c main_v26 (by decide)

end Cert.KernelIdeal.Val

end
-- ==== Proof.KVal.lean ====
/-
  The kernel program's result is the model of its arguments. The fold of the segments is read from the end: the
  result is the last region's output squeezed; each region's output is its stage of what the stretch before it left;
  each stretch leaves its stage of the region before it; the arguments, the edge endpoints and the edge weights are
  carried unchanged to where they are read. The one place the index range is used is the first stage, where the
  indicator-weighted sum of the table's rows is the row lookup.
-/
import proofs.«413399_j3264175145167_1_alg».proof.Proof.Region0
import proofs.«413399_j3264175145167_1_alg».proof.Proof.EmbRows
import proofs.«413399_j3264175145167_1_alg».proof.Proof.Region1
import proofs.«413399_j3264175145167_1_alg».proof.Proof.Region2
import proofs.«413399_j3264175145167_1_alg».proof.Proof.Region3
import proofs.«413399_j3264175145167_1_alg».proof.Proof.Region4
import proofs.«413399_j3264175145167_1_alg».proof.Proof.HostVals
import proofs.«413399_j3264175145167_1_alg».proof.Proof.Carry
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem kernel_val (c : Dev nD)
    (hx : ∀ i : S100000.Idx, 0 ≤ ((m ((c : Thread nD τ).loc main_arg0)) i).toInt ∧ ((m ((c : Thread nD τ).loc main_arg0)) i).toInt < 100) :
    W12 m ρ c (Proc.devRef .tc main_v71)
      = Cert.Spec.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  -- the rows looked up: region 0's output, cut to the nodes
  have h0 : W4 m ρ c (Proc.devRef .tc main_v29) = Cert.Spec.embRows (F := Ideal) (m ((c : Thread nD τ).loc main_arg0)) (m ((c : Thread nD τ).loc main_arg3)) := by
    rw [W4_rows]
    have e : W3 m ρ c (Proc.devRef .tc main_v28) = lookupRows (W2 m ρ c (Proc.devRef .tc main_v27)) (W2 m ρ c (Proc.devRef .tc main_arg3)) :=
      (W3_arr m ρ c 2).trans (region0_val (V2 m ρ) c)
    rw [e, W2_xpad, W2_arg3]
    exact lookup_slice_eq _ _ _ hx
  -- first projection
  have h1 : W5 m ρ c (Proc.devRef .tc main_v30) = Cert.Spec.proj (F := Ideal) (Cert.Spec.embRows (F := Ideal) (m ((c : Thread nD τ).loc main_arg0)) (m ((c : Thread nD τ).loc main_arg3))) (m ((c : Thread nD τ).loc main_arg4)) := by
    refine (W5_arr m ρ c 2).trans ((region1_val (V4 m ρ) c).trans ?_)
    show Cert.Spec.proj (F := Ideal) (W4 m ρ c (Proc.devRef .tc main_v29)) (W4 m ρ c (Proc.devRef .tc main_arg4)) = _
    rw [h0, W4_arg4]
  -- first aggregation
  have h2 : W6 m ρ c (Proc.devRef .tc main_v43) = Cert.Spec.aggregate (F := Ideal) (Cert.Spec.proj (F := Ideal) (Cert.Spec.embRows (F := Ideal) (m ((c : Thread nD τ).loc main_arg0)) (m ((c : Thread nD τ).loc main_arg3))) (m ((c : Thread nD τ).loc main_arg4))) (m ((c : Thread nD τ).loc main_arg1)) := by
    rw [W6_agg, h1, W5_v3, W5_v6, W5_v26, W2_src, W2_dst, W2_norm]
    rfl
  -- bias, clip, second projection
  have h3 : W7 m ρ c (Proc.devRef .tc main_v44) = Cert.Spec.proj (F := Ideal) (Cert.Spec.biasRelu (F := Ideal) (W6 m ρ c (Proc.devRef .tc main_v43)) (m ((c : Thread nD τ).loc main_arg5))) (m ((c : Thread nD τ).loc main_arg6)) := by
    refine (W7_arr m ρ c 3).trans ((region2_val (V6 m ρ) c).trans ?_)
    show Cert.Spec.proj (F := Ideal) (Cert.Spec.biasRelu (F := Ideal) (W6 m ρ c (Proc.devRef .tc main_v43)) (W6 m ρ c (Proc.devRef .tc main_arg5))) (W6 m ρ c (Proc.devRef .tc main_arg6)) = _
    rw [W6_arg5, W6_arg6]
  -- second aggregation
  have h4 : W8 m ρ c (Proc.devRef .tc main_v57) = Cert.Spec.aggregate (F := Ideal) (W7 m ρ c (Proc.devRef .tc main_v44)) (m ((c : Thread nD τ).loc main_arg1)) := by
    rw [W8_agg, W7_v3, W7_v6, W7_v26, W2_src, W2_dst, W2_norm]
    rfl
  -- bias, clip
  have h5 : W9 m ρ c (Proc.devRef .tc main_v58) = Cert.Spec.biasRelu (F := Ideal) (W8 m ρ c (Proc.devRef .tc main_v57)) (m ((c : Thread nD τ).loc main_arg7)) := by
    refine (W9_arr m ρ c 2).trans ((region3_val (V8 m ρ) c).trans ?_)
    show Cert.Spec.biasRelu (F := Ideal) (W8 m ρ c (Proc.devRef .tc main_v57)) (W8 m ρ c (Proc.devRef .tc main_arg7)) = _
    rw [W8_arg7]
  -- the graphs' mean rows
  have h6 : W10 m ρ c (Proc.devRef .tc main_v69) = Cert.Spec.pool (F := Ideal) (W9 m ρ c (Proc.devRef .tc main_v58)) (m ((c : Thread nD τ).loc main_arg2)) := by
    rw [W10_pool, W9_arg2]
  -- the head
  have h7 : W11 m ρ c (Proc.devRef .tc main_v70) = Cert.Spec.head (F := Ideal) (W10 m ρ c (Proc.devRef .tc main_v69)) (m ((c : Thread nD τ).loc main_arg8)) (m ((c : Thread nD τ).loc main_arg9)) := by
    refine (W11_arr m ρ c 3).trans ((region4_val (V10 m ρ) c).trans ?_)
    show Cert.Spec.head (F := Ideal) (W10 m ρ c (Proc.devRef .tc main_v69)) (W10 m ρ c (Proc.devRef .tc main_arg8)) (W10 m ρ c (Proc.devRef .tc main_arg9)) = _
    rw [W10_arg8, W10_arg9]
  rw [W12_out, h7, h6, h5, h4, h3, h2]
  rfl

end Cert.KernelIdeal.Val

end
-- ==== Proof.PreRange.lean ====
/-
  What the precondition says of the node feature ids: its last conjunct is "every id is at least 0 and below 100",
  a conjunction of two word compares reduced by "and" over the 100000 nodes.
-/
import proofs.«413399_j3264175145167_1_alg».proof.Defs
import proofs.«413399_j3264175145167_1_alg».proof.Proof.Gen.Pre_finite_inputs
import Idealize.ShloMosaic.Lib.ReduceAll
import Idealize.ShloMosaic.Lib.Affine
import Idealize.ShloMosaic.Lib.ValueIdx

noncomputable section

namespace Cert.PreRange

open Idealize.ShloMosaic Cert.Pre_finite_inputs Cert.Pre_finite_inputs.Gen

instance : Subsingleton S_.Idx := ⟨fun a b => funext fun d => d.elim0⟩

variable {F : FTy → Type} [FloatOps F]

/-- Where the precondition is all ones, every feature id is a row number of the table. -/
theorem range_of_fn (a0 : IVec S100000 32) (a1 : IVec S2x400000 32) (a2 : IVec S100000 32) (a3 : FVec F S100x128 .f32)
    (a4 : FVec F S128x128 .f32) (a5 : FVec F S128 .f32) (a6 : FVec F S128x128 .f32) (a7 : FVec F S128 .f32)
    (a8 : FVec F S128x1 .f32) (a9 : FVec F S1 .f32)
    (h : fn (F := F) a0 a1 a2 a3 a4 a5 a6 a7 a8 a9 = fun _ => 1#1) (i : S100000.Idx) :
    0 ≤ (a0 i).toInt ∧ (a0 i).toInt < 100 := by
  have h1 := congrFun h ValueIdx.ix0
  dsimp only [fn, fn_part1, fn_part2] at h1
  have h2 := (IntOp.andi_eq_one.mp h1).2
  have h3 := Host.reduce_andi_all _ _ _ _ _ h2 i
  obtain ⟨hge, hlt⟩ := IntOp.andi_eq_one.mp h3
  exact ⟨IntOp.cmpi_sge.mp hge, IntOp.cmpi_slt.mp hlt⟩

end Cert.PreRange

end
-- ==== Proof.RefModel.lean ====
/-
  The reference program's result is the model of its arguments: its operations, stage by stage, are the model's.
-/
import proofs.«413399_j3264175145167_1_alg».proof.Proof.Gen.ReferenceIdeal.Read
import proofs.«413399_j3264175145167_1_alg».proof.Proof.Spec

noncomputable section

namespace Cert.RefModel

open Idealize.ShloMosaic Cert.ReferenceIdeal Cert.ReferenceIdeal.Gen Cert.ReferenceIdeal.Read Cert.Spec

variable {F : FTy → Type} [FloatOps F]
variable (x0 : IVec S100000 32) (x1 : IVec S2x400000 32) (x2 : IVec S100000 32) (x3 : FVec F S100x128 .f32)
  (x4 : FVec F S128x128 .f32) (x5 : FVec F S128 .f32) (x6 : FVec F S128x128 .f32) (x7 : FVec F S128 .f32)
  (x8 : FVec F S128x1 .f32) (x9 : FVec F S1 .f32)

/-- The first layer's output. -/
theorem layer1_eq : val_main_v51 (F := F) x0 x1 x3 x4 x5 = biasRelu (aggregate (proj (embRows x0 x3) x4) x1) x5 := rfl
/-- The second layer's output, over the first's. -/
theorem layer2_eq : val_main_v69 (F := F) x0 x1 x3 x4 x5 x6 x7
    = biasRelu (aggregate (proj (val_main_v51 (F := F) x0 x1 x3 x4 x5) x6) x1) x7 := rfl
/-- The graphs' mean rows, over the second layer's output. -/
theorem pooled_eq : val_main_v80 (F := F) x0 x1 x2 x3 x4 x5 x6 x7 = pool (val_main_v69 (F := F) x0 x1 x3 x4 x5 x6 x7) x2 := rfl
/-- The result, over the mean rows. -/
theorem out_eq : val_main_v85 (F := F) x0 x1 x2 x3 x4 x5 x6 x7 x8 x9
    = squeeze (head (val_main_v80 (F := F) x0 x1 x2 x3 x4 x5 x6 x7) x8 x9) := rfl

/-- The reference's result is the model. -/
theorem model_eq : val_main_v85 (F := F) x0 x1 x2 x3 x4 x5 x6 x7 x8 x9 = model x0 x1 x2 x3 x4 x5 x6 x7 x8 x9 := by
  rw [out_eq, pooled_eq, layer2_eq, layer1_eq]
  rfl

end Cert.RefModel

end
-- ==== Proof.lean ====
/-
  The certificate of a two-layer graph convolution network: the tiled program against its array-at-a-time reference,
  equal over the extended reals for finite weights and embedding ids inside the table (0 ≤ x < 100).

  Both programs compute one function of the arguments, the model of Proof/Spec.lean. The reference does so operation
  by operation (Proof/RefModel.lean). The tiled program does so region by region: the embedding lookup is a product
  of a 0/1 comparison matrix with the table, which for an id inside the table leaves exactly that id's row and for an
  id outside it would leave zero where the reference wraps and clamps, hence the precondition
  (Proof/Region0.lean, Proof/EmbRows.lean, Proof/PreRange.lean); the two projections, the bias-and-clip steps and the
  linear head are computed on blocks of rows that tile the arrays, and a row of a product depends on that row alone
  (Proof/Region1.lean … Proof/Region4.lean); the degree normalisation, the gather / scatter-add message passing and
  the mean pooling are the same operations in both programs and are carried as whole stages, never opened
  (Proof/HostVals.lean, Proof/Carry.lean). Proof/KVal.lean chains these from the last boundary back to the launch.
  No step regroups a sum, so nothing here needs the weights' finiteness; the precondition is used only for the ids.
-/
import proofs.«413399_j3264175145167_1_alg».proof.Defs
import proofs.«413399_j3264175145167_1_alg».proof.Proof.Gen.Kernel
import proofs.«413399_j3264175145167_1_alg».proof.Proof.Gen.Kernel.Skeleton
import proofs.«413399_j3264175145167_1_alg».proof.Proof.Gen.Kernel.Launch
import proofs.«413399_j3264175145167_1_alg».proof.Proof.Gen.Kernel.Points
import proofs.«413399_j3264175145167_1_alg».proof.Proof.Gen.Kernel.Frame
import proofs.«413399_j3264175145167_1_alg».proof.Proof.Gen.KernelIdeal
import proofs.«413399_j3264175145167_1_alg».proof.Proof.Gen.KernelIdeal.Skeleton
import proofs.«413399_j3264175145167_1_alg».proof.Proof.Gen.KernelIdeal.Launch
import proofs.«413399_j3264175145167_1_alg».proof.Proof.Gen.KernelIdeal.Points
import proofs.«413399_j3264175145167_1_alg».proof.Proof.Gen.KernelIdeal.Frame
import proofs.«413399_j3264175145167_1_alg».proof.Proof.Gen.ReferenceIdeal
import proofs.«413399_j3264175145167_1_alg».proof.Proof.Gen.Pre_finite_inputs
import proofs.«413399_j3264175145167_1_alg».proof.Proof.Gen.ReferenceIdeal.Run
import proofs.«413399_j3264175145167_1_alg».proof.Proof.Gen.ReferenceIdeal.Read
import proofs.«413399_j3264175145167_1_alg».proof.Proof.KRun
import proofs.«413399_j3264175145167_1_alg».proof.Proof.KVal
import proofs.«413399_j3264175145167_1_alg».proof.Proof.PreRange
import proofs.«413399_j3264175145167_1_alg».proof.Proof.RefModel
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the model of those arguments. -/
theorem algebraic : Cert.algebraic_KernelIdeal_ReferenceIdeal := by
  intro m ρ m' ρ' hpre hagree
  refine ⟨fun c => Cert.Spec.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.Run.run_named m ρ)
    exact Cert.KernelIdeal.Val.kernel_val m ρ c (fun i => Cert.PreRange.range_of_fn _ _ _ _ _ _ _ _ _ _ (hpre c) i)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v85_eq, Cert.RefModel.model_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
